-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x131072x3 : Shape := ⟨3, ![4, 131072, 3]⟩
abbrev S4 : Shape := ⟨1, ![4]⟩
abbrev S13776x3 : Shape := ⟨2, ![13776, 3]⟩
abbrev S4x131072 : Shape := ⟨2, ![4, 131072]⟩
abbrev S4x131072x1 : Shape := ⟨3, ![4, 131072, 1]⟩
abbrev S256x6890x64 : Shape := ⟨3, ![256, 6890, 64]⟩
abbrev S_ : Shape := ⟨0, ![]⟩

class Facts : Prop where
  bcast_S_S4x131072x3 : S_.BroadcastsInDim S4x131072x3 (![] : Fin 0 → Fin S4x131072x3.rank)
  reducesTo_S4x131072x3_S_d0_1_2 : S4x131072x3.ReducesTo [0, 1, 2] S_
  h_S_ : 0 < S_.numel
  bcast_S_S4x131072x1 : S_.BroadcastsInDim S4x131072x1 (![] : Fin 0 → Fin S4x131072x1.rank)
  reducesTo_S4x131072x1_S_d0_1_2 : S4x131072x1.ReducesTo [0, 1, 2] S_
  bcast_S_S256x6890x64 : S_.BroadcastsInDim S256x6890x64 (![] : Fin 0 → Fin S256x6890x64.rank)
  reducesTo_S256x6890x64_S_d0_1_2 : S256x6890x64.ReducesTo [0, 1, 2] S_
  bcast_S_S4 : S_.BroadcastsInDim S4 (![] : Fin 0 → Fin S4.rank)
  reducesTo_S4_S_d0 : S4.ReducesTo [0] S_
  bcast_S_S13776x3 : S_.BroadcastsInDim S13776x3 (![] : Fin 0 → Fin S13776x3.rank)
  reducesTo_S13776x3_S_d0_1 : S13776x3.ReducesTo [0, 1] S_
  bcast_S_S4x131072 : S_.BroadcastsInDim S4x131072 (![] : Fin 0 → Fin S4x131072.rank)
  reducesTo_S4x131072_S_d0_1 : S4x131072.ReducesTo [0, 1] S_

variable [Facts]

def fn_part2 {F : FTy → Type} [FloatOps F] (main_arg2 : IVec S13776x3 32) (main_arg3 : IVec S4x131072 32) (main_v31 : IVec S_ 1) (main_v32 : IVec S13776x3 32) : IVec S_ 1 :=
  let main_v33 : IVec S13776x3 1 := cmpi .sge main_arg2 main_v32
  let main_c_13 : IVec S_ 1 := constantI S_ 1 1#1
  let main_v34 : IVec S_ 1 := (fun x v => Host.reduce IntOp.andi x v reducesTo_S13776x3_S_d0_1 h_S_) main_v33 main_c_13
  let main_v35 : IVec S_ 1 := andi main_v31 main_v34
  let main_c_14 : IVec S_ 32 := constantI S_ 32 6890#32
  let main_v36 : IVec S13776x3 32 := broadcastInDim S13776x3 ![] bcast_S_S13776x3 main_c_14
  let main_v37 : IVec S13776x3 1 := cmpi .slt main_arg2 main_v36
  let main_c_15 : IVec S_ 1 := constantI S_ 1 1#1
  let main_v38 : IVec S_ 1 := (fun x v => Host.reduce IntOp.andi x v reducesTo_S13776x3_S_d0_1 h_S_) main_v37 main_c_15
  let main_v39 : IVec S_ 1 := andi main_v35 main_v38
  let main_c_16 : IVec S_ 32 := constantI S_ 32 0#32
  let main_v40 : IVec S4x131072 32 := broadcastInDim S4x131072 ![] bcast_S_S4x131072 main_c_16
  let main_v41 : IVec S4x131072 1 := cmpi .sge main_arg3 main_v40
  let main_c_17 : IVec S_ 1 := constantI S_ 1 1#1
  let main_v42 : IVec S_ 1 := (fun x v => Host.reduce IntOp.andi x v reducesTo_S4x131072_S_d0_1 h_S_) main_v41 main_c_17
  let main_v43 : IVec S_ 1 := andi main_v39 main_v42
  let main_c_18 : IVec S_ 32 := constantI S_ 32 13776#32
  let main_v44 : IVec S4x131072 32 := broadcastInDim S4x131072 ![] bcast_S_S4x131072 main_c_18
  let main_v45 : IVec S4x131072 1 := cmpi .slt main_arg3 main_v44
  let main_c_19 : IVec S_ 1 := constantI S_ 1 1#1
  let main_v46 : IVec S_ 1 := (fun x v => Host.reduce IntOp.andi x v reducesTo_S4x131072_S_d0_1 h_S_) main_v45 main_c_19
  let main_v47 : IVec S_ 1 := andi main_v43 main_v46
  main_v47

def fn_part1 {F : FTy → Type} [FloatOps F] (main_arg1 : IVec S4 32) (main_arg2 : IVec S13776x3 32) (main_arg3 : IVec S4x131072 32) (main_arg7 : FVec F S256x6890x64 .f32) (main_v13 : IVec S_ 1) (main_v16 : IVec S4x131072x3 1) : IVec S_ 1 :=
  let main_c_5 : IVec S_ 1 := constantI S_ 1 1#1
  let main_v17 : IVec S_ 1 := (fun x v => Host.reduce IntOp.andi x v reducesTo_S4x131072x3_S_d0_1_2 h_S_) main_v16 main_c_5
  let main_v18 : IVec S_ 1 := andi main_v13 main_v17
  let main_v19 : FVec F S256x6890x64 .f32 := Host.absf main_arg7
  let main_cst_6 : FVec F S_ .f32 := constant S_ .f32 0x7F800000#32
  let main_v20 : FVec F S256x6890x64 .f32 := broadcastInDim S256x6890x64 ![] bcast_S_S256x6890x64 main_cst_6
  let main_v21 : IVec S256x6890x64 1 := cmpf .olt main_v19 main_v20
  let main_c_7 : IVec S_ 1 := constantI S_ 1 1#1
  let main_v22 : IVec S_ 1 := (fun x v => Host.reduce IntOp.andi x v reducesTo_S256x6890x64_S_d0_1_2 h_S_) main_v21 main_c_7
  let main_v23 : IVec S_ 1 := andi main_v18 main_v22
  let main_c_8 : IVec S_ 32 := constantI S_ 32 0#32
  let main_v24 : IVec S4 32 := broadcastInDim S4 ![] bcast_S_S4 main_c_8
  let main_v25 : IVec S4 1 := cmpi .sge main_arg1 main_v24
  let main_c_9 : IVec S_ 1 := constantI S_ 1 1#1
  let main_v26 : IVec S_ 1 := (fun x v => Host.reduce IntOp.andi x v reducesTo_S4_S_d0 h_S_) main_v25 main_c_9
  let main_v27 : IVec S_ 1 := andi main_v23 main_v26
  let main_c_10 : IVec S_ 32 := constantI S_ 32 256#32
  let main_v28 : IVec S4 32 := broadcastInDim S4 ![] bcast_S_S4 main_c_10
  let main_v29 : IVec S4 1 := cmpi .slt main_arg1 main_v28
  let main_c_11 : IVec S_ 1 := constantI S_ 1 1#1
  let main_v30 : IVec S_ 1 := (fun x v => Host.reduce IntOp.andi x v reducesTo_S4_S_d0 h_S_) main_v29 main_c_11
  let main_v31 : IVec S_ 1 := andi main_v27 main_v30
  let main_c_12 : IVec S_ 32 := constantI S_ 32 0#32
  let main_v32 : IVec S13776x3 32 := broadcastInDim S13776x3 ![] bcast_S_S13776x3 main_c_12
  fn_part2 (F := F) main_arg2 main_arg3 main_v31 main_v32

def fn {F : FTy → Type} [FloatOps F] (main_arg0 : FVec F S4x131072x3 .f32) (main_arg1 : IVec S4 32) (main_arg2 : IVec S13776x3 32) (main_arg3 : IVec S4x131072 32) (main_arg4 : FVec F S4x131072x3 .f32) (main_arg5 : FVec F S4x131072x1 .f32) (main_arg6 : FVec F S4x131072x3 .f32) (main_arg7 : FVec F S256x6890x64 .f32) : IVec S_ 1 :=
  let main_v0 : FVec F S4x131072x3 .f32 := Host.absf main_arg0
  let main_cst : FVec F S_ .f32 := constant S_ .f32 0x7F800000#32
  let main_v1 : FVec F S4x131072x3 .f32 := broadcastInDim S4x131072x3 ![] bcast_S_S4x131072x3 main_cst
  let main_v2 : IVec S4x131072x3 1 := cmpf .olt main_v0 main_v1
  let main_c : IVec S_ 1 := constantI S_ 1 1#1
  let main_v3 : IVec S_ 1 := (fun x v => Host.reduce IntOp.andi x v reducesTo_S4x131072x3_S_d0_1_2 h_S_) main_v2 main_c
  let main_v4 : FVec F S4x131072x3 .f32 := Host.absf main_arg4
  let main_cst_0 : FVec F S_ .f32 := constant S_ .f32 0x7F800000#32
  let main_v5 : FVec F S4x131072x3 .f32 := broadcastInDim S4x131072x3 ![] bcast_S_S4x131072x3 main_cst_0
  let main_v6 : IVec S4x131072x3 1 := cmpf .olt main_v4 main_v5
  let main_c_1 : IVec S_ 1 := constantI S_ 1 1#1
  let main_v7 : IVec S_ 1 := (fun x v => Host.reduce IntOp.andi x v reducesTo_S4x131072x3_S_d0_1_2 h_S_) main_v6 main_c_1
  let main_v8 : IVec S_ 1 := andi main_v3 main_v7
  let main_v9 : FVec F S4x131072x1 .f32 := Host.absf main_arg5
  let main_cst_2 : FVec F S_ .f32 := constant S_ .f32 0x7F800000#32
  let main_v10 : FVec F S4x131072x1 .f32 := broadcastInDim S4x131072x1 ![] bcast_S_S4x131072x1 main_cst_2
  let main_v11 : IVec S4x131072x1 1 := cmpf .olt main_v9 main_v10
  let main_c_3 : IVec S_ 1 := constantI S_ 1 1#1
  let main_v12 : IVec S_ 1 := (fun x v => Host.reduce IntOp.andi x v reducesTo_S4x131072x1_S_d0_1_2 h_S_) main_v11 main_c_3
  let main_v13 : IVec S_ 1 := andi main_v8 main_v12
  let main_v14 : FVec F S4x131072x3 .f32 := Host.absf main_arg6
  let main_cst_4 : FVec F S_ .f32 := constant S_ .f32 0x7F800000#32
  let main_v15 : FVec F S4x131072x3 .f32 := broadcastInDim S4x131072x3 ![] bcast_S_S4x131072x3 main_cst_4
  let main_v16 : IVec S4x131072x3 1 := cmpf .olt main_v14 main_v15
  fn_part1 (F := F) main_arg1 main_arg2 main_arg3 main_arg7 main_v13 main_v16
-- ==== Kernel.lean ====
abbrev S4x131072x3 : Shape := ⟨3, ![4, 131072, 3]⟩
abbrev S4 : Shape := ⟨1, ![4]⟩
abbrev S13776x3 : Shape := ⟨2, ![13776, 3]⟩
abbrev S4x131072 : Shape := ⟨2, ![4, 131072]⟩
abbrev S4x131072x1 : Shape := ⟨3, ![4, 131072, 1]⟩
abbrev S256x6890x64 : Shape := ⟨3, ![256, 6890, 64]⟩
abbrev S_ : Shape := ⟨0, ![]⟩
abbrev S1 : Shape := ⟨1, ![1]⟩
abbrev S1x1x1 : Shape := ⟨3, ![1, 1, 1]⟩
abbrev S4x1 : Shape := ⟨2, ![4, 1]⟩
abbrev S1x1 : Shape := ⟨2, ![1, 1]⟩
abbrev S4x6890x64 : Shape := ⟨3, ![4, 6890, 64]⟩
abbrev S4x6912x64 : Shape := ⟨3, ![4, 6912, 64]⟩
abbrev S4x131072x64 : Shape := ⟨3, ![4, 131072, 64]⟩
abbrev S1x1024x3 : Shape := ⟨3, ![1, 1024, 3]⟩
abbrev S1x1024x1 : Shape := ⟨3, ![1, 1024, 1]⟩
abbrev S1x6912x64 : Shape := ⟨3, ![1, 6912, 64]⟩
abbrev S1x1024x64 : Shape := ⟨3, ![1, 1024, 64]⟩
abbrev S1024x3 : Shape := ⟨2, ![1024, 3]⟩
abbrev S1024x2304 : Shape := ⟨2, ![1024, 2304]⟩
abbrev S1024x64 : Shape := ⟨2, ![1024, 64]⟩
abbrev S1x2304x64 : Shape := ⟨3, ![1, 2304, 64]⟩
abbrev S2304x64 : Shape := ⟨2, ![2304, 64]⟩
abbrev S1024x1 : Shape := ⟨2, ![1024, 1]⟩
abbrev S1024 : Shape := ⟨1, ![1024]⟩
abbrev S1024x2 : Shape := ⟨2, ![1024, 2]⟩

abbrev nBuf : Space → Nat
  | .hbm => 61
  | .vmem => 18
  | .smem => 0
  | _ => 0

abbrev bufTy : (tb : Table) → Fin (tcTables nBuf tb) → BufTy
  | .hbm, ⟨0, _⟩ => ⟨S4x131072x3, .f32⟩
  | .hbm, ⟨1, _⟩ => ⟨S4, .i32⟩
  | .hbm, ⟨2, _⟩ => ⟨S13776x3, .i32⟩
  | .hbm, ⟨3, _⟩ => ⟨S4x131072, .i32⟩
  | .hbm, ⟨4, _⟩ => ⟨S4x131072x3, .f32⟩
  | .hbm, ⟨5, _⟩ => ⟨S4x131072x1, .f32⟩
  | .hbm, ⟨6, _⟩ => ⟨S4x131072x3, .f32⟩
  | .hbm, ⟨7, _⟩ => ⟨S256x6890x64, .f32⟩
  | .hbm, ⟨8, _⟩ => ⟨S_, .i32⟩
  | .hbm, ⟨9, _⟩ => ⟨S4x131072, .i32⟩
  | .hbm, ⟨10, _⟩ => ⟨S4x131072, .i1⟩
  | .hbm, ⟨11, _⟩ => ⟨S_, .i32⟩
  | .hbm, ⟨12, _⟩ => ⟨S4x131072, .i32⟩
  | .hbm, ⟨13, _⟩ => ⟨S4x131072, .i32⟩
  | .hbm, ⟨14, _⟩ => ⟨S4x131072, .i32⟩
  | .hbm, ⟨15, _⟩ => ⟨S4x131072x1, .i32⟩
  | .hbm, ⟨16, _⟩ => ⟨S1, .i32⟩
  | .hbm, ⟨17, _⟩ => ⟨S_, .i32⟩
  | .hbm, ⟨18, _⟩ => ⟨S4x131072x1, .i32⟩
  | .hbm, ⟨19, _⟩ => ⟨S4x131072x1, .i1⟩
  | .hbm, ⟨20, _⟩ => ⟨S1x1x1, .i32⟩
  | .hbm, ⟨21, _⟩ => ⟨S4x131072x1, .i32⟩
  | .hbm, ⟨22, _⟩ => ⟨S4x131072x1, .i1⟩
  | .hbm, ⟨23, _⟩ => ⟨S4x131072x1, .i1⟩
  | .hbm, ⟨24, _⟩ => ⟨S_, .i1⟩
  | .hbm, ⟨25, _⟩ => ⟨S4x131072, .i1⟩
  | .hbm, ⟨26, _⟩ => ⟨S4x131072x3, .i32⟩
  | .hbm, ⟨27, _⟩ => ⟨S4x131072x3, .i1⟩
  | .hbm, ⟨28, _⟩ => ⟨S_, .i32⟩
  | .hbm, ⟨29, _⟩ => ⟨S4x131072x3, .i32⟩
  | .hbm, ⟨30, _⟩ => ⟨S4x131072x3, .i32⟩
  | .hbm, ⟨31, _⟩ => ⟨S_, .i32⟩
  | .hbm, ⟨32, _⟩ => ⟨S4, .i32⟩
  | .hbm, ⟨33, _⟩ => ⟨S4, .i1⟩
  | .hbm, ⟨34, _⟩ => ⟨S_, .i32⟩
  | .hbm, ⟨35, _⟩ => ⟨S4, .i32⟩
  | .hbm, ⟨36, _⟩ => ⟨S4, .i32⟩
  | .hbm, ⟨37, _⟩ => ⟨S4, .i32⟩
  | .hbm, ⟨38, _⟩ => ⟨S4x1, .i32⟩
  | .hbm, ⟨39, _⟩ => ⟨S1, .i32⟩
  | .hbm, ⟨40, _⟩ => ⟨S_, .i32⟩
  | .hbm, ⟨41, _⟩ => ⟨S4x1, .i32⟩
  | .hbm, ⟨42, _⟩ => ⟨S4x1, .i1⟩
  | .hbm, ⟨43, _⟩ => ⟨S1x1, .i32⟩
  | .hbm, ⟨44, _⟩ => ⟨S4x1, .i32⟩
  | .hbm, ⟨45, _⟩ => ⟨S4x1, .i1⟩
  | .hbm, ⟨46, _⟩ => ⟨S4x1, .i1⟩
  | .hbm, ⟨47, _⟩ => ⟨S_, .i1⟩
  | .hbm, ⟨48, _⟩ => ⟨S4, .i1⟩
  | .hbm, ⟨49, _⟩ => ⟨S4x6890x64, .f32⟩
  | .hbm, ⟨50, _⟩ => ⟨S4x6890x64, .i1⟩
  | .hbm, ⟨51, _⟩ => ⟨S_, .f32⟩
  | .hbm, ⟨52, _⟩ => ⟨S4x6890x64, .f32⟩
  | .hbm, ⟨53, _⟩ => ⟨S4x6890x64, .f32⟩
  | .hbm, ⟨54, _⟩ => ⟨S4x6890x64, .bf16⟩
  | .hbm, ⟨55, _⟩ => ⟨S_, .i32⟩
  | .hbm, ⟨56, _⟩ => ⟨S_, .bf16⟩
  | .hbm, ⟨57, _⟩ => ⟨S4x6912x64, .bf16⟩
  | .hbm, ⟨58, _⟩ => ⟨S4x131072x64, .f32⟩
  | .hbm, ⟨59, _⟩ => ⟨S4x131072x3, .f32⟩
  | .hbm, ⟨60, _⟩ => ⟨S4x131072x3, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x3, .f32⟩
  | .local _ .vmem, ⟨5, _⟩ => ⟨S1x1024x3, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x3, .i32⟩
  | .local _ .vmem, ⟨9, _⟩ => ⟨S1x1024x3, .i32⟩
  | .local _ .vmem, ⟨10, _⟩ => ⟨S1x6912x64, .bf16⟩
  | .local _ .vmem, ⟨11, _⟩ => ⟨S1x6912x64, .bf16⟩
  | .local _ .vmem, ⟨12, _⟩ => ⟨S1x1024x64, .f32⟩
  | .local _ .vmem, ⟨13, _⟩ => ⟨S1x1024x64, .f32⟩
  | .local _ .vmem, ⟨14, _⟩ => ⟨S1x1024x3, .f32⟩
  | .local _ .vmem, ⟨15, _⟩ => ⟨S1x1024x3, .f32⟩
  | .local _ .vmem, ⟨16, _⟩ => ⟨S1x1024x3, .f32⟩
  | .local _ .vmem, ⟨17, _⟩ => ⟨S1x1024x3, .f32⟩
  | _, _ => ⟨S4x131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_c_4 : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_c : Ref sig .tc := ⟨.hbm, 55, rfl⟩
abbrev main_call2_v0 : Ref sig .tc := ⟨.hbm, 56, rfl⟩
abbrev main_v3 : Ref sig .tc := ⟨.hbm, 57, rfl⟩
abbrev main_v4_0 : Ref sig .tc := ⟨.hbm, 58, rfl⟩
abbrev main_v4_1 : Ref sig .tc := ⟨.hbm, 59, rfl⟩
abbrev main_v4_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 128], ![false, false]⟩

@[reducible] def k0_t1_loop : Scf.Loop 32 :=
  let c0_i32 : BitVec 32 := 0#32
  let c3_i32 : BitVec 32 := 3#32
  let v6 : BitVec 32 := Scalar.addi c0_i32 c3_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c2304_i32 : BitVec 32 := 2304#32
  let v34 : BitVec 32 := Scalar.muli arg11 c2304_i32
  v34
def k0_off1 (k0_t1 : Fin k0_t1_loop.trips) : Fin 3 → Nat :=
  let c0_26 : Index := 0#32
  let c0_i32 : BitVec 32 := 0#32
  let c1_i32 : BitVec 32 := 1#32
  let arg11 : BitVec 32 := Scf.iv c0_i32 c1_i32 k0_t1
  let c2304_i32 : BitVec 32 := 2304#32
  let v34 : BitVec 32 := Scalar.muli arg11 c2304_i32
  let v35 : BitVec 32 := v34
  let v36 : Index := Scalar.indexCast v35
  let c0_27 : Index := 0#32
  ![0, v36.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x3 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6912x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S_S4x131072 : S_.BroadcastsInDim S4x131072 (![] : Fin 0 → Fin S4x131072.rank)
  bcast_S4x131072_S4x131072x1_0_1 : S4x131072.BroadcastsInDim S4x131072x1 (![0, 1] : Fin 2 → Fin S4x131072x1.rank)
  bcast_S_S4x131072x1 : S_.BroadcastsInDim S4x131072x1 (![] : Fin 0 → Fin S4x131072x1.rank)
  bcast_S1_S1x1x1_2 : S1.BroadcastsInDim S1x1x1 (![2] : Fin 1 → Fin S1x1x1.rank)
  bcast_S1x1x1_S4x131072x1_0_1_2 : S1x1x1.BroadcastsInDim S4x131072x1 (![0, 1, 2] : Fin 3 → Fin S4x131072x1.rank)
  reducesTo_S4x131072x1_S4x131072_d2 : S4x131072x1.ReducesTo [2] S4x131072
  h_S_ : 0 < S_.numel
  bcast_S4x131072_S4x131072x3_0_1 : S4x131072.BroadcastsInDim S4x131072x3 (![0, 1] : Fin 2 → Fin S4x131072x3.rank)
  bcast_S_S4x131072x3 : S_.BroadcastsInDim S4x131072x3 (![] : Fin 0 → Fin S4x131072x3.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  reducesTo_S4x1_S4_d1 : S4x1.ReducesTo [1] S4
  bcast_S4_S4x6890x64_0 : S4.BroadcastsInDim S4x6890x64 (![0] : Fin 1 → Fin S4x6890x64.rank)
  bcast_S_S4x6890x64 : S_.BroadcastsInDim S4x6890x64 (![] : Fin 0 → Fin S4x6890x64.rank)
  bitsLt_bf16_f32 : FTy.bits .bf16 < FTy.bits .f32
  pads_S4x6890x64_S4x6912x64_000_0220_000 : S4x6890x64.Pads (![0, 0, 0] : Fin 3 → Nat) ![0, 22, 0] ![0, 0, 0] S4x6912x64
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  iota_S1024x2304_d1_w32 : S1024x2304.Iotas .tc 32 [1]
  h_S1x2304x64 : 0 < S1x2304x64.numel
  shapeCasts_S1x2304x64_S2304x64 : S1x2304x64.ShapeCasts S2304x64
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  broadcasts_S1024x1_S1024x2304 : S1024x1.Broadcasts S1024x2304
  shapeCasts_S1024x1_S1024x1 : S1024x1.ShapeCasts S1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  reduces_S1024x3_S1024 : S1024x3.Reduces [1] S1024
  shapeCasts_S1024_S1024x1 : S1024.ShapeCasts S1024x1
  broadcasts_S1024x1_S1024x3 : S1024x1.Broadcasts S1024x3
  shapeCasts_S1024x3_S1x1024x3 : S1024x3.ShapeCasts S1x1024x3
  slices_S1024x3_o0_1_S1024x2 : S1024x3.Slices ![0, 1] S1024x2
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  concatenates_S1024x2_S1024x1_S1024x3_d1 : Shape.Concatenates [S1024x2, S1024x1] S1024x3 1
  gather_S13776x3_S4x131072x1_S4x131072x3_2_0_n_n_0_2_13_wf : GatherDims.WF S13776x3 S4x131072x1 S4x131072x3 [2] [0] [] [0] [] 2 ![1, 3]
  gather_S256x6890x64_S4x1_S4x6890x64_12_0_n_n_0_1_1689064_wf : GatherDims.WF S256x6890x64 S4x1 S4x6890x64 [1, 2] [0] [] [0] [] 1 ![1, 6890, 64]
  dot_S1024x2304_S2304x64_S1024x64_1_0_0_1_n_n_wf : DotDims.WF S1024x2304 S2304x64 S1024x64 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x2304x64.size a ≤ S1x6912x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x131072x3.size a
  hwx0_0 : ∀ i : grid0.Coords, EltTy.bits .f32 = 32 ∨ (Rect.block (s := S4x131072x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x131072x3.size a
  hwx0_1 : ∀ i : grid0.Coords, EltTy.bits .f32 = 32 ∨ (Rect.block (s := S4x131072x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x3.size a ≤ S4x131072x3.size a
  hwx0_2 : ∀ i : grid0.Coords, EltTy.bits .f32 = 32 ∨ (Rect.block (s := S4x131072x3) S1x1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S4x131072x1.size a
  hwx0_3 : ∀ i : grid0.Coords, EltTy.bits .f32 = 32 ∨ (Rect.block (s := S4x131072x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x3.size a ≤ S4x131072x3.size a
  hwx0_4 : ∀ i : grid0.Coords, EltTy.bits .i32 = 32 ∨ (Rect.block (s := S4x131072x3) S1x1024x3.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x6912x64.size a ≤ S4x6912x64.size a
  hwx0_5 : ∀ i : grid0.Coords, EltTy.bits .bf16 = 32 ∨ (Rect.block (s := S4x6912x64) S1x6912x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x131072x64.size a
  hwx0_6 : ∀ i : grid0.Coords, EltTy.bits .f32 = 32 ∨ (Rect.block (s := S4x131072x64) S1x1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x3.size a ≤ S4x131072x3.size a
  hwx0_7 : ∀ i : grid0.Coords, EltTy.bits .f32 = 32 ∨ (Rect.block (s := S4x131072x3) S1x1024x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x3.size a ≤ S4x131072x3.size a
  hwx0_8 : ∀ i : grid0.Coords, EltTy.bits .f32 = 32 ∨ (Rect.block (s := S4x131072x3) S1x1024x3.size (cc0_transform_8 i) (hinb0_8 i)).WholeWords (EltTy.packing .f32)

variable [Facts₀]

def gather_S13776x3_S4x131072x1_S4x131072x3_2_0_n_n_0_2_13 : GatherDims S13776x3 S4x131072x1 S4x131072x3 where
  offsetDims := [2]
  collapsedSliceDims := [0]
  operandBatchingDims := []
  startIndicesBatchingDims := []
  startIndexMap := [0]
  indexVectorDim := 2
  sliceSizes := ![1, 3]
  wf := gather_S13776x3_S4x131072x1_S4x131072x3_2_0_n_n_0_2_13_wf
def gather_S256x6890x64_S4x1_S4x6890x64_12_0_n_n_0_1_1689064 : GatherDims S256x6890x64 S4x1 S4x6890x64 where
  offsetDims := [1, 2]
  collapsedSliceDims := [0]
  operandBatchingDims := []
  startIndicesBatchingDims := []
  startIndexMap := [0]
  indexVectorDim := 1
  sliceSizes := ![1, 6890, 64]
  wf := gather_S256x6890x64_S4x1_S4x6890x64_12_0_n_n_0_1_1689064_wf
def dot_S1024x2304_S2304x64_S1024x64_1_0_0_1_n_n : DotDims S1024x2304 S2304x64 S1024x64 where
  lhsContracting := [1]
  rhsContracting := [0]
  lhsNonContracting := [0]
  rhsNonContracting := [1]
  lhsBatch := []
  rhsBatch := []
  wf := dot_S1024x2304_S2304x64_S1024x64_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x6912x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x1024x3.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S1x1024x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x131072x3 : Shape := ⟨3, ![4, 131072, 3]⟩
abbrev S4 : Shape := ⟨1, ![4]⟩
abbrev S13776x3 : Shape := ⟨2, ![13776, 3]⟩
abbrev S4x131072 : Shape := ⟨2, ![4, 131072]⟩
abbrev S4x131072x1 : Shape := ⟨3, ![4, 131072, 1]⟩
abbrev S256x6890x64 : Shape := ⟨3, ![256, 6890, 64]⟩
abbrev S_ : Shape := ⟨0, ![]⟩
abbrev S4x1 : Shape := ⟨2, ![4, 1]⟩
abbrev S4x6890x64 : Shape := ⟨3, ![4, 6890, 64]⟩
abbrev S4x1x1 : Shape := ⟨3, ![4, 1, 1]⟩
abbrev S4x131072x3x1 : Shape := ⟨4, ![4, 131072, 3, 1]⟩
abbrev S4x131072x3x2 : Shape := ⟨4, ![4, 131072, 3, 2]⟩
abbrev S4x131072x3x64 : Shape := ⟨4, ![4, 131072, 3, 64]⟩
abbrev S4x131072x64 : Shape := ⟨3, ![4, 131072, 64]⟩
abbrev S4x131072x2 : Shape := ⟨3, ![4, 131072, 2]⟩

abbrev nBuf : Space → Nat
  | .hbm => 65
  | .vmem => 0
  | .smem => 0
  | _ => 0

abbrev bufTy : (tb : Table) → Fin (tcTables nBuf tb) → BufTy
  | .hbm, ⟨0, _⟩ => ⟨S4x131072x3, .f32⟩
  | .hbm, ⟨1, _⟩ => ⟨S4, .i32⟩
  | .hbm, ⟨2, _⟩ => ⟨S13776x3, .i32⟩
  | .hbm, ⟨3, _⟩ => ⟨S4x131072, .i32⟩
  | .hbm, ⟨4, _⟩ => ⟨S4x131072x3, .f32⟩
  | .hbm, ⟨5, _⟩ => ⟨S4x131072x1, .f32⟩
  | .hbm, ⟨6, _⟩ => ⟨S4x131072x3, .f32⟩
  | .hbm, ⟨7, _⟩ => ⟨S256x6890x64, .f32⟩
  | .hbm, ⟨8, _⟩ => ⟨S4x131072x3, .f32⟩
  | .hbm, ⟨9, _⟩ => ⟨S4x131072x3, .f32⟩
  | .hbm, ⟨10, _⟩ => ⟨S_, .f32⟩
  | .hbm, ⟨11, _⟩ => ⟨S4x131072, .f32⟩
  | .hbm, ⟨12, _⟩ => ⟨S4x131072x1, .f32⟩
  | .hbm, ⟨13, _⟩ => ⟨S4x131072x1, .f32⟩
  | .hbm, ⟨14, _⟩ => ⟨S_, .f32⟩
  | .hbm, ⟨15, _⟩ => ⟨S4x131072x1, .f32⟩
  | .hbm, ⟨16, _⟩ => ⟨S4x131072x1, .f32⟩
  | .hbm, ⟨17, _⟩ => ⟨S4x131072x3, .f32⟩
  | .hbm, ⟨18, _⟩ => ⟨S4x131072x3, .f32⟩
  | .hbm, ⟨19, _⟩ => ⟨S_, .i32⟩
  | .hbm, ⟨20, _⟩ => ⟨S4x131072, .i32⟩
  | .hbm, ⟨21, _⟩ => ⟨S4x131072, .i1⟩
  | .hbm, ⟨22, _⟩ => ⟨S_, .i32⟩
  | .hbm, ⟨23, _⟩ => ⟨S4x131072, .i32⟩
  | .hbm, ⟨24, _⟩ => ⟨S4x131072, .i32⟩
  | .hbm, ⟨25, _⟩ => ⟨S4x131072, .i32⟩
  | .hbm, ⟨26, _⟩ => ⟨S4x131072x1, .i32⟩
  | .hbm, ⟨27, _⟩ => ⟨S4x131072x3, .i32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S4x6890x64, .f32⟩
  | .hbm, ⟨37, _⟩ => ⟨S4, .i32⟩
  | .hbm, ⟨38, _⟩ => ⟨S4x1x1, .i32⟩
  | .hbm, ⟨39, _⟩ => ⟨S_, .i32⟩
  | .hbm, ⟨40, _⟩ => ⟨S4x1x1, .i32⟩
  | .hbm, ⟨41, _⟩ => ⟨S4x1x1, .i1⟩
  | .hbm, ⟨42, _⟩ => ⟨S_, .i32⟩
  | .hbm, ⟨43, _⟩ => ⟨S4x1x1, .i32⟩
  | .hbm, ⟨44, _⟩ => ⟨S4x1x1, .i32⟩
  | .hbm, ⟨45, _⟩ => ⟨S4x1x1, .i32⟩
  | .hbm, ⟨46, _⟩ => ⟨S_, .i32⟩
  | .hbm, ⟨47, _⟩ => ⟨S4x131072x3, .i32⟩
  | .hbm, ⟨48, _⟩ => ⟨S4x131072x3, .i1⟩
  | .hbm, ⟨49, _⟩ => ⟨S_, .i32⟩
  | .hbm, ⟨50, _⟩ => ⟨S4x131072x3, .i32⟩
  | .hbm, ⟨51, _⟩ => ⟨S4x131072x3, .i32⟩
  | .hbm, ⟨52, _⟩ => ⟨S4x131072x3, .i32⟩
  | .hbm, ⟨53, _⟩ => ⟨S4x131072x3, .i32⟩
  | .hbm, ⟨54, _⟩ => ⟨S4x131072x3x1, .i32⟩
  | .hbm, ⟨55, _⟩ => ⟨S4x131072x3x1, .i32⟩
  | .hbm, ⟨56, _⟩ => ⟨S4x131072x3x2, .i32⟩
  | .hbm, ⟨57, _⟩ => ⟨S4x131072x3x64, .f32⟩
  | .hbm, ⟨58, _⟩ => ⟨S4x131072x3x1, .f32⟩
  | .hbm, ⟨59, _⟩ => ⟨S4x131072x3x64, .f32⟩
  | .hbm, ⟨60, _⟩ => ⟨S4x131072x3x64, .f32⟩
  | .hbm, ⟨61, _⟩ => ⟨S_, .f32⟩
  | .hbm, ⟨62, _⟩ => ⟨S4x131072x64, .f32⟩
  | .hbm, ⟨63, _⟩ => ⟨S4x131072x2, .f32⟩
  | .hbm, ⟨64, _⟩ => ⟨S4x131072x3, .f32⟩
  | _, _ => ⟨S4x131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  reducesTo_S4x131072x3_S4x131072_d2 : S4x131072x3.ReducesTo [2] S4x131072
  h_S_ : 0 < S_.numel
  bcast_S4x131072_S4x131072x1_0_1 : S4x131072.BroadcastsInDim S4x131072x1 (![0, 1] : Fin 2 → Fin S4x131072x1.rank)
  bcast_S_S4x131072x1 : S_.BroadcastsInDim S4x131072x1 (![] : Fin 0 → Fin S4x131072x1.rank)
  bcast_S4x131072x1_S4x131072x3_0_1_2 : S4x131072x1.BroadcastsInDim S4x131072x3 (![0, 1, 2] : Fin 3 → Fin S4x131072x3.rank)
  bcast_S_S4x131072 : S_.BroadcastsInDim S4x131072 (![] : Fin 0 → Fin S4x131072.rank)
  bcast_S_S4 : S_.BroadcastsInDim S4 (![] : Fin 0 → Fin S4.rank)
  bcast_S4_S4x1_0 : S4.BroadcastsInDim S4x1 (![0] : Fin 1 → Fin S4x1.rank)
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x131072x3 : S_.BroadcastsInDim S4x131072x3 (![] : Fin 0 → Fin S4x131072x3.rank)
  bcast_S4x1x1_S4x131072x3_0_1_2 : S4x1x1.BroadcastsInDim S4x131072x3 (![0, 1, 2] : Fin 3 → Fin S4x131072x3.rank)
  bcast_S4x131072x3_S4x131072x3x1_0_1_2 : S4x131072x3.BroadcastsInDim S4x131072x3x1 (![0, 1, 2] : Fin 3 → Fin S4x131072x3x1.rank)
  concatenates_S4x131072x3x1_S4x131072x3x1_S4x131072x3x2_d3 : Shape.Concatenates [S4x131072x3x1, S4x131072x3x1] S4x131072x3x2 3
  bcast_S4x131072x3x1_S4x131072x3x64_0_1_2_3 : S4x131072x3x1.BroadcastsInDim S4x131072x3x64 (![0, 1, 2, 3] : Fin 4 → Fin S4x131072x3x64.rank)
  reducesTo_S4x131072x3x64_S4x131072x64_d2 : S4x131072x3x64.ReducesTo [2] S4x131072x64
  slices_S4x131072x3_S4x131072x2_0_0_1 : S4x131072x3.Slices ![0, 0, 1] S4x131072x2
  concatenates_S4x131072x2_S4x131072x1_S4x131072x3_d2 : Shape.Concatenates [S4x131072x2, S4x131072x1] S4x131072x3 2
  gather_S13776x3_S4x131072x1_S4x131072x3_2_0_n_n_0_2_13_wf : GatherDims.WF S13776x3 S4x131072x1 S4x131072x3 [2] [0] [] [0] [] 2 ![1, 3]
  gather_S256x6890x64_S4x1_S4x6890x64_12_0_n_n_0_1_1689064_wf : GatherDims.WF S256x6890x64 S4x1 S4x6890x64 [1, 2] [0] [] [0] [] 1 ![1, 6890, 64]
  gather_S4x6890x64_S4x131072x3x2_S4x131072x3x64_3_01_n_n_01_3_1164_wf : GatherDims.WF S4x6890x64 S4x131072x3x2 S4x131072x3x64 [3] [0, 1] [] [0, 1] [] 3 ![1, 1, 64]

variable [Facts₀]

def gather_S13776x3_S4x131072x1_S4x131072x3_2_0_n_n_0_2_13 : GatherDims S13776x3 S4x131072x1 S4x131072x3 where
  offsetDims := [2]
  collapsedSliceDims := [0]
  operandBatchingDims := []
  startIndicesBatchingDims := []
  startIndexMap := [0]
  indexVectorDim := 2
  sliceSizes := ![1, 3]
  wf := gather_S13776x3_S4x131072x1_S4x131072x3_2_0_n_n_0_2_13_wf
def gather_S256x6890x64_S4x1_S4x6890x64_12_0_n_n_0_1_1689064 : GatherDims S256x6890x64 S4x1 S4x6890x64 where
  offsetDims := [1, 2]
  collapsedSliceDims := [0]
  operandBatchingDims := []
  startIndicesBatchingDims := []
  startIndexMap := [0]
  indexVectorDim := 1
  sliceSizes := ![1, 6890, 64]
  wf := gather_S256x6890x64_S4x1_S4x6890x64_12_0_n_n_0_1_1689064_wf
def gather_S4x6890x64_S4x131072x3x2_S4x131072x3x64_3_01_n_n_01_3_1164 : GatherDims S4x6890x64 S4x131072x3x2 S4x131072x3x64 where
  offsetDims := [3]
  collapsedSliceDims := [0, 1]
  operandBatchingDims := []
  startIndicesBatchingDims := []
  startIndexMap := [0, 1]
  indexVectorDim := 3
  sliceSizes := ![1, 1, 64]
  wf := gather_S4x6890x64_S4x131072x3x2_S4x131072x3x64_3_01_n_n_01_3_1164_wf

class Facts : Prop extends Facts₀ where

variable [Facts]
-- ==== Proof.Spec.lean ====
/-
  The three results as functions of the argument arrays, index by index, over the literal shapes.

  A point is (b, s): batch element b of 4, sample s of 131072. Its hit face is row `fid[b, s]` of the face table, whose three
  entries are the vertices of the face's corners; its subject is `idx[b]`, which picks one of 256 vertex tables of 6890 rows of
  64 features.
  * the vertex features of the point: over the three corners c, the subject's table row at the corner's vertex, times the
    point's weight for that corner, summed;
  * the coordinate features: the point's second and third weights, then its signed distance;
  * the normal: the offset from the point's coordinates to its hit position, divided by the larger of the offset's
    Euclidean length and the constant 9.99999997e-7 (kept as its binary word: both programs carry the same word).
  An index word names a row of an axis of extent n by its signed value, negative values at row 0 and values past the end at the
  last row; for a word in [0, n) that is the word itself.
-/
import Idealize.ShloMosaic.PureOps.Ideal
import Idealize.ShloMosaic.Lib.ValueIdx
import Mathlib.Algebra.BigOperators.Group.Finset.Basic

noncomputable section

open scoped BigOperators

namespace Cert.FaceFeat

open Idealize.ShloMosaic Idealize.ShloMosaic.ValueIdx

/-- The row of an axis of extent `n` that a 32-bit index word names: its signed value, at least row 0, at most the last row. -/
def rowOf (n : ℕ) (hn : 0 < n) (x : BitVec 32) : Fin n := ⟨min x.toInt.toNat (n - 1), by omega⟩

/-- A word whose unsigned value is below `n ≤ 2³¹` reads the same signed, so it names row `x.toNat`. -/
theorem rowOf_val_of_lt (n : ℕ) (hn : 0 < n) (hn' : n ≤ 2 ^ 31) (x : BitVec 32) (h : x.toNat < n) : (rowOf n hn x).val = x.toNat := by
  have hi : x.toInt = (x.toNat : ℤ) := by
    unfold BitVec.toInt
    rw [if_pos (by omega)]
  show min x.toInt.toNat (n - 1) = x.toNat
  rw [hi, Int.toNat_natCast]
  omega

/-- Per-point triples [4, 131072, 3]; per-point scalars [4, 131072, 1]; per-point features [4, 131072, 64]. -/
abbrev Tri : Shape := ⟨3, ![4, 131072, 3]⟩
abbrev One : Shape := ⟨3, ![4, 131072, 1]⟩
abbrev Feat : Shape := ⟨3, ![4, 131072, 64]⟩
/-- The subjects [4], the face table [13776, 3], the face ids [4, 131072], the vertex tables [256, 6890, 64]. -/
abbrev Subj : Shape := ⟨1, ![4]⟩
abbrev Faces : Shape := ⟨2, ![13776, 3]⟩
abbrev Fid : Shape := ⟨2, ![4, 131072]⟩
abbrev Books : Shape := ⟨3, ![256, 6890, 64]⟩

/-- The vertex at corner `c` of the face point `(b, s)` hits. -/
def hitVertex (faces : Faces.Idx → BitVec 32) (fid : Fid.Idx → BitVec 32) (b : Fin 4) (s : Fin 131072) (c : Fin 3) : Fin 6890 :=
  rowOf 6890 (by decide) (faces (ix2 (rowOf 13776 (by decide) (fid (ix2 b s))) c))

/-- THE VERTEX FEATURES: the weighted sum, over the hit face's three corners, of the subject's table rows. -/
def featG (books : Books.Idx → EReal) (idx : Subj.Idx → BitVec 32) (faces : Faces.Idx → BitVec 32) (fid : Fid.Idx → BitVec 32)
    (w : Tri.Idx → EReal) : Feat.Idx → EReal := fun i =>
  ∑ c : Fin 3, books (ix3 (rowOf 256 (by decide) (idx (ix1 (i 0)))) (hitVertex faces fid (i 0) (i 1) c) (i 2)) * w (ix3 (i 0) (i 1) c)

/-- THE COORDINATE FEATURES: weights 1 and 2 of the point, then its signed distance. -/
def coordsFeatG (w : Tri.Idx → EReal) (sdf : One.Idx → EReal) : Tri.Idx → EReal := fun i =>
  if h : (i 2).val < 2 then w (ix3 (i 0) (i 1) ⟨(i 2).val + 1, by omega⟩) else sdf (ix3 (i 0) (i 1) (0 : Fin 1))

/-- The squared length of the offset from point `(b, s)`'s coordinates to its hit position. -/
def sqLen (coords hitpt : Tri.Idx → EReal) (b : Fin 4) (s : Fin 131072) : EReal :=
  ∑ k : Fin 3, (hitpt (ix3 b s k) - coords (ix3 b s k)) * (hitpt (ix3 b s k) - coords (ix3 b s k))

/-- THE NORMAL: the offset over the larger of its length and the floor constant. -/
def normalG (coords hitpt : Tri.Idx → EReal) : Tri.Idx → EReal := fun i =>
  Ideal.div (hitpt i - coords i) (max (Ideal.sqrt (sqLen coords hitpt (i 0) (i 1))) (Ideal.ofBits .f32 0x358637BD#32))

/-- What the bridge uses of the precondition: the weights and the vertex tables are real numbers (the law that spreads a table
    entry over a sum of weights needs it), and every index word is in range of the axis it indexes. -/
structure InDomain (idx : Subj.Idx → BitVec 32) (faces : Faces.Idx → BitVec 32) (fid : Fid.Idx → BitVec 32)
    (w : Tri.Idx → EReal) (books : Books.Idx → EReal) : Prop where
  w_real : ∀ i, ∃ r : ℝ, w i = (r : EReal)
  books_real : ∀ i, ∃ r : ℝ, books i = (r : EReal)
  idx_lt : ∀ i, (idx i).toNat < 256
  faces_lt : ∀ i, (faces i).toNat < 6890
  fid_lt : ∀ i, (fid i).toNat < 13776

end Cert.FaceFeat

end
-- ==== Proof.Blocks.lean ====
/-
  The block geometry of the kernel's one launch.

  The launch runs over a grid of 4 × 128 points in row-major order: point t = 128 b + j works on batch element b = t / 128 and on the j-th
  run of 1024 consecutive samples, j = t % 128. Every per-point array [4, 131072, D] (the coordinates, the hit positions, the weights, the
  signed distance, the hit face's three vertices, and the three results) is cut into blocks [1, 1024, D]; point t's block lies at block
  index (b, j, 0), so its entry (0, r, k) is the array's entry (b, 1024 j + r, k). The padded vertex table [4, 6912, 64] is cut along the
  batch axis only: point t's block [1, 6912, 64] lies at block index (b, 0, 0), so its entry (0, u, d) is the table's entry (b, u, d).

  What is stated here:
  * each input block's entry as an entry of its array. On every axis an element of a block has, in the array, the coordinate
    block index × block size + its coordinate inside the block; the block indices are read off the index maps once, for all 512 points;
  * the three results' contents at a point, spelled over the six named input blocks;
  * from blocks to arrays, for each result. Its blocks tile its array (sample s of batch element b lies in the block of the point
    128 b + s / 1024) and every point writes its block back. So if every point's block is ONE whole-array function G read where the block
    lies, then what each point writes back is G read through its block, and the array after the run is G.
-/
import proofs.«413851_j32942399160428_3_alg».proof.Proof.Gen.KernelIdeal.Value
import proofs.«413851_j32942399160428_3_alg».proof.Proof.Spec
import Idealize.ShloMosaic.Lib.Pipeline.Value
import Idealize.ShloMosaic.Lib.ValueIdx

set_option maxRecDepth 16384

noncomputable section

open scoped BigOperators

namespace Cert.FaceFeat.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The six staged arrays as the region finds them, at their literal shapes. -/
abbrev coordsArr (c : Dev nD) : Vec Ideal S4x131072x3 .f32 := V m c main_arg0
abbrev hitptArr (c : Dev nD) : Vec Ideal S4x131072x3 .f32 := V m c main_arg6
abbrev wArr (c : Dev nD) : Vec Ideal S4x131072x3 .f32 := V m c main_arg4
abbrev sdfArr (c : Dev nD) : Vec Ideal S4x131072x1 .f32 := V m c main_arg5
abbrev faceArr (c : Dev nD) : Vec Ideal S4x131072x3 .i32 := V m c main_v0
abbrev tableArr (c : Dev nD) : Vec Ideal S4x6912x64 .bf16 := V m c main_v3

/-- The six input blocks at grid point `t`, at their literal shapes. -/
abbrev coordsBlk (c : Dev nD) (t : Fin cfg0.N) : Vec Ideal S1x1024x3 .f32 := iblk m c 0 t
abbrev hitptBlk (c : Dev nD) (t : Fin cfg0.N) : Vec Ideal S1x1024x3 .f32 := iblk m c 1 t
abbrev wBlk (c : Dev nD) (t : Fin cfg0.N) : Vec Ideal S1x1024x3 .f32 := iblk m c 2 t
abbrev sdfBlk (c : Dev nD) (t : Fin cfg0.N) : Vec Ideal S1x1024x1 .f32 := iblk m c 3 t
abbrev faceBlk (c : Dev nD) (t : Fin cfg0.N) : Vec Ideal S1x1024x3 .i32 := iblk m c 4 t
abbrev tableBlk (c : Dev nD) (t : Fin cfg0.N) : Vec Ideal S1x6912x64 .bf16 := iblk m c 5 t

theorem t_lt (t : Fin cfg0.N) : t.val < 512 := by
  have h := t.isLt
  have e : cfg0.N = 512 := N_0
  omega

/-- Grid point `t`'s batch element, and the sample its block's row `r` is. -/
def pb (t : Fin cfg0.N) : Fin 4 := ⟨t.val / 128, by have := t_lt t; omega⟩
def ps (t : Fin cfg0.N) (r : Fin 1024) : Fin 131072 := ⟨1024 * (t.val % 128) + r.val, by have := t_lt t; have := r.isLt; omega⟩

/-- The printed index maps, decided over the 512 grid points. Every per-point window sits at block (t / 128, t % 128, 0):
    the batch element is the quotient of the point by 128, the run of 1024 samples its remainder. -/
theorem coordsIdx : ∀ t : Fin cfg0.N, win0_0.index t (0 : Fin 3) = t.val / 128 ∧ win0_0.index t (1 : Fin 3) = t.val % 128 ∧ win0_0.index t (2 : Fin 3) = 0 :=
  (by decide +kernel : ∀ t : Fin grid0.N, _)
theorem hitptIdx : ∀ t : Fin cfg0.N, win0_1.index t (0 : Fin 3) = t.val / 128 ∧ win0_1.index t (1 : Fin 3) = t.val % 128 ∧ win0_1.index t (2 : Fin 3) = 0 :=
  (by decide +kernel : ∀ t : Fin grid0.N, _)
theorem wIdx : ∀ t : Fin cfg0.N, win0_2.index t (0 : Fin 3) = t.val / 128 ∧ win0_2.index t (1 : Fin 3) = t.val % 128 ∧ win0_2.index t (2 : Fin 3) = 0 :=
  (by decide +kernel : ∀ t : Fin grid0.N, _)
theorem sdfIdx : ∀ t : Fin cfg0.N, win0_3.index t (0 : Fin 3) = t.val / 128 ∧ win0_3.index t (1 : Fin 3) = t.val % 128 ∧ win0_3.index t (2 : Fin 3) = 0 :=
  (by decide +kernel : ∀ t : Fin grid0.N, _)
theorem faceIdx : ∀ t : Fin cfg0.N, win0_4.index t (0 : Fin 3) = t.val / 128 ∧ win0_4.index t (1 : Fin 3) = t.val % 128 ∧ win0_4.index t (2 : Fin 3) = 0 :=
  (by decide +kernel : ∀ t : Fin grid0.N, _)
/-- The padded table's window moves with the batch element only: block (t / 128, 0, 0). -/
theorem tableIdx : ∀ t : Fin cfg0.N, win0_5.index t (0 : Fin 3) = t.val / 128 ∧ win0_5.index t (1 : Fin 3) = 0 ∧ win0_5.index t (2 : Fin 3) = 0 :=
  (by decide +kernel : ∀ t : Fin grid0.N, _)
theorem featIdx : ∀ t : Fin cfg0.N, win0_6.index t (0 : Fin 3) = t.val / 128 ∧ win0_6.index t (1 : Fin 3) = t.val % 128 ∧ win0_6.index t (2 : Fin 3) = 0 :=
  (by decide +kernel : ∀ t : Fin grid0.N, _)
theorem coordsFeatIdx : ∀ t : Fin cfg0.N, win0_7.index t (0 : Fin 3) = t.val / 128 ∧ win0_7.index t (1 : Fin 3) = t.val % 128 ∧ win0_7.index t (2 : Fin 3) = 0 :=
  (by decide +kernel : ∀ t : Fin grid0.N, _)
theorem normalIdx : ∀ t : Fin cfg0.N, win0_8.index t (0 : Fin 3) = t.val / 128 ∧ win0_8.index t (1 : Fin 3) = t.val % 128 ∧ win0_8.index t (2 : Fin 3) = 0 :=
  (by decide +kernel : ∀ t : Fin grid0.N, _)

theorem coordsBlk_apply (c : Dev nD) (t : Fin cfg0.N) (r : Fin 1024) (k : Fin 3) :
    coordsBlk m c t (ix3 (0 : Fin 1) r k) = coordsArr m c (ix3 (pb t) (ps t r) k) := by
  obtain ⟨e0, e1, e2⟩ := coordsIdx t
  show iblk m c _ t _ = _
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val / 128; omega
  | ⟨1, _⟩ => show win0_0.index t (1 : Fin 3) * 1024 + 1 * r.val = 1024 * (t.val % 128) + r.val; omega
  | ⟨2, _⟩ => show win0_0.index t (2 : Fin 3) * 3 + 1 * k.val = k.val; omega
theorem hitptBlk_apply (c : Dev nD) (t : Fin cfg0.N) (r : Fin 1024) (k : Fin 3) :
    hitptBlk m c t (ix3 (0 : Fin 1) r k) = hitptArr m c (ix3 (pb t) (ps t r) k) := by
  obtain ⟨e0, e1, e2⟩ := hitptIdx t
  show iblk m c _ t _ = _
  unfold iblk
  rw [View.read_apply]
  show V m c main_arg6 _ = V m c main_arg6 _
  refine congrArg (V m c main_arg6) (funext fun a => Fin.ext ?_)
  match a with
  | ⟨0, _⟩ => show win0_1.index t (0 : Fin 3) * 1 + 1 * 0 = t.val / 128; omega
  | ⟨1, _⟩ => show win0_1.index t (1 : Fin 3) * 1024 + 1 * r.val = 1024 * (t.val % 128) + r.val; omega
  | ⟨2, _⟩ => show win0_1.index t (2 : Fin 3) * 3 + 1 * k.val = k.val; omega
theorem wBlk_apply (c : Dev nD) (t : Fin cfg0.N) (r : Fin 1024) (k : Fin 3) :
    wBlk m c t (ix3 (0 : Fin 1) r k) = wArr m c (ix3 (pb t) (ps t r) k) := by
  obtain ⟨e0, e1, e2⟩ := wIdx t
  show iblk m c _ t _ = _
  unfold iblk
  rw [View.read_apply]
  show V m c main_arg4 _ = V m c main_arg4 _
  refine congrArg (V m c main_arg4) (funext fun a => Fin.ext ?_)
  match a with
  | ⟨0, _⟩ => show win0_2.index t (0 : Fin 3) * 1 + 1 * 0 = t.val / 128; omega
  | ⟨1, _⟩ => show win0_2.index t (1 : Fin 3) * 1024 + 1 * r.val = 1024 * (t.val % 128) + r.val; omega
  | ⟨2, _⟩ => show win0_2.index t (2 : Fin 3) * 3 + 1 * k.val = k.val; omega
theorem sdfBlk_apply (c : Dev nD) (t : Fin cfg0.N) (r : Fin 1024) (k : Fin 1) :
    sdfBlk m c t (ix3 (0 : Fin 1) r k) = sdfArr m c (ix3 (pb t) (ps t r) k) := by
  obtain ⟨e0, e1, e2⟩ := sdfIdx t
  show iblk m c _ t _ = _
  unfold iblk
  rw [View.read_apply]
  show V m c main_arg5 _ = V m c main_arg5 _
  refine congrArg (V m c main_arg5) (funext fun a => Fin.ext ?_)
  match a with
  | ⟨0, _⟩ => show win0_3.index t (0 : Fin 3) * 1 + 1 * 0 = t.val / 128; omega
  | ⟨1, _⟩ => show win0_3.index t (1 : Fin 3) * 1024 + 1 * r.val = 1024 * (t.val % 128) + r.val; omega
  | ⟨2, _⟩ => show win0_3.index t (2 : Fin 3) * 1 + 1 * k.val = k.val; omega
theorem faceBlk_apply (c : Dev nD) (t : Fin cfg0.N) (r : Fin 1024) (k : Fin 3) :
    faceBlk m c t (ix3 (0 : Fin 1) r k) = faceArr m c (ix3 (pb t) (ps t r) k) := by
  obtain ⟨e0, e1, e2⟩ := faceIdx t
  show iblk m c _ t _ = _
  unfold iblk
  rw [View.read_apply]
  show V m c main_v0 _ = V m c main_v0 _
  refine congrArg (V m c main_v0) (funext fun a => Fin.ext ?_)
  match a with
  | ⟨0, _⟩ => show win0_4.index t (0 : Fin 3) * 1 + 1 * 0 = t.val / 128; omega
  | ⟨1, _⟩ => show win0_4.index t (1 : Fin 3) * 1024 + 1 * r.val = 1024 * (t.val % 128) + r.val; omega
  | ⟨2, _⟩ => show win0_4.index t (2 : Fin 3) * 3 + 1 * k.val = k.val; omega
theorem tableBlk_apply (c : Dev nD) (t : Fin cfg0.N) (u : Fin 6912) (d : Fin 64) :
    tableBlk m c t (ix3 (0 : Fin 1) u d) = tableArr m c (ix3 (pb t) u d) := by
  obtain ⟨e0, e1, e2⟩ := tableIdx t
  show iblk m c _ t _ = _
  unfold iblk
  rw [View.read_apply]
  show V m c main_v3 _ = V m c main_v3 _
  refine congrArg (V m c main_v3) (funext fun a => Fin.ext ?_)
  match a with
  | ⟨0, _⟩ => show win0_5.index t (0 : Fin 3) * 1 + 1 * 0 = t.val / 128; omega
  | ⟨1, _⟩ => show win0_5.index t (1 : Fin 3) * 6912 + 1 * u.val = u.val; omega
  | ⟨2, _⟩ => show win0_5.index t (2 : Fin 3) * 64 + 1 * d.val = d.val; omega

/-- The run's contents for the three outputs at point `t`, over the named blocks. -/
theorem outsAt0_eq (c : Dev nD) (t : Fin cfg0.N) :
    outsAt0 m c t =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
          (coordsBlk m c t) (hitptBlk m c t) (wBlk m c t) (sdfBlk m c t) (faceBlk m c t) (tableBlk m c t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
          (coordsBlk m c t) (hitptBlk m c t) (wBlk m c t) (sdfBlk m c t) (faceBlk m c t) (tableBlk m c t),
       out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
          (coordsBlk m c t) (hitptBlk m c t) (wBlk m c t) (sdfBlk m c t) (faceBlk m c t) (tableBlk m c t)) := by
  unfold outsAt0; rfl

/-- An index of the vertex-feature array lies in point `t`'s block iff each coordinate lies in the block's range on its axis. -/
theorem mem_featBlk (t : Fin cfg0.N) (i : S4x131072x64.Idx) :
    i ∈ ((cfg0.win 6).blk t).view.set ↔ ∀ a : Fin 3, win0_6.index t a * S1x1024x64.size a ≤ (i a).val ∧ (i a).val < win0_6.index t a * S1x1024x64.size a + S1x1024x64.size a := by
  show i ∈ ((View.whole main_v4_0).slice (win0_6.rect t)).set ↔ _
  rw [View.set_slice_whole, Rect.mem_set_unit]
  exact Iff.rfl

/-- The blocks tile the vertex-feature array: sample `s` of batch element `b` lies in the block of point `128 b + s / 1024`. -/
theorem feat_cover (i : S4x131072x64.Idx) :
    ∃ t : Fin cfg0.N, (cfg0.win 6).flush t = true ∧ i ∈ ((cfg0.win 6).blk t).view.set := by
  have h0 : (i 0).val < 4 := (i 0).isLt
  have h1 : (i 1).val < 131072 := (i 1).isLt
  have h2 : (i 2).val < 64 := (i 2).isLt
  have hN : cfg0.N = 512 := N_0
  obtain ⟨t, ht⟩ : ∃ t : Fin cfg0.N, t.val = 128 * (i 0).val + (i 1).val / 1024 := ⟨⟨_, by omega⟩, rfl⟩
  obtain ⟨e0, e1, e2⟩ := featIdx t
  refine ⟨t, flush0_6 t, ?_⟩
  rw [mem_featBlk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 64 ≤ (i 2).val ∧ (i 2).val < win0_6.index t (2 : Fin 3) * 64 + 64; omega

/-- What point `t` writes back to the vertex-feature array is `G` read through the point's block, once the point's output block is
    `G` read where the block lies. -/
theorem feat_flushed (c : Dev nD) (G : S4x131072x64.Idx → EReal)
    (h : ∀ (t : Fin cfg0.N) (r : Fin 1024) (d : Fin 64), (outsAt0 m c t).1 (ix3 (0 : Fin 1) r d) = G (ix3 (pb t) (ps t r) d))
    (t : Fin cfg0.N) : (dats m 0 c).flushed 6 t = ((cfg0.win 6).blk t).view.read (Elt Ideal) G := by
  rw [Value.flushed6]
  obtain ⟨e0, e1, e2⟩ := featIdx t
  refine funext fun (y : S1x1024x64.Idx) => ?_
  obtain ⟨y0, r, d, rfl⟩ : ∃ (y0 : Fin 1) (r : Fin 1024) (d : Fin 64), y = ix3 y0 r d := ⟨y 0, y 1, y 2, eq_ix3 y⟩
  obtain rfl : y0 = 0 := Subsingleton.elim _ _
  refine Eq.trans (b := G (ix3 (pb t) (ps t r) d)) (h t r d) ?_
  rw [View.read_apply]
  show G _ = G _
  refine congrArg G (funext fun a => Fin.ext ?_)
  match a with
  | ⟨0, _⟩ => show t.val / 128 = win0_6.index t (0 : Fin 3) * 1 + 1 * 0; omega
  | ⟨1, _⟩ => show 1024 * (t.val % 128) + r.val = win0_6.index t (1 : Fin 3) * 1024 + 1 * r.val; omega
  | ⟨2, _⟩ => show d.val = win0_6.index t (2 : Fin 3) * 64 + 1 * d.val; omega

/-- An index of the coordinate-feature array lies in point `t`'s block iff each coordinate lies in the block's range on its axis. -/
theorem mem_coordsFeatBlk (t : Fin cfg0.N) (i : S4x131072x3.Idx) :
    i ∈ ((cfg0.win 7).blk t).view.set ↔ ∀ a : Fin 3, win0_7.index t a * S1x1024x3.size a ≤ (i a).val ∧ (i a).val < win0_7.index t a * S1x1024x3.size a + S1x1024x3.size a := by
  show i ∈ ((View.whole main_v4_1).slice (win0_7.rect t)).set ↔ _
  rw [View.set_slice_whole, Rect.mem_set_unit]
  exact Iff.rfl

/-- The blocks tile the coordinate-feature array: sample `s` of batch element `b` lies in the block of point `128 b + s / 1024`. -/
theorem coordsFeat_cover (i : S4x131072x3.Idx) :
    ∃ t : Fin cfg0.N, (cfg0.win 7).flush t = true ∧ i ∈ ((cfg0.win 7).blk t).view.set := by
  have h0 : (i 0).val < 4 := (i 0).isLt
  have h1 : (i 1).val < 131072 := (i 1).isLt
  have h2 : (i 2).val < 3 := (i 2).isLt
  have hN : cfg0.N = 512 := N_0
  obtain ⟨t, ht⟩ : ∃ t : Fin cfg0.N, t.val = 128 * (i 0).val + (i 1).val / 1024 := ⟨⟨_, by omega⟩, rfl⟩
  obtain ⟨e0, e1, e2⟩ := coordsFeatIdx t
  refine ⟨t, flush0_7 t, ?_⟩
  rw [mem_coordsFeatBlk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 3 ≤ (i 2).val ∧ (i 2).val < win0_7.index t (2 : Fin 3) * 3 + 3; omega

/-- What point `t` writes back to the coordinate-feature array is `G` read through the point's block, once the point's output block is
    `G` read where the block lies. -/
theorem coordsFeat_flushed (c : Dev nD) (G : S4x131072x3.Idx → EReal)
    (h : ∀ (t : Fin cfg0.N) (r : Fin 1024) (k : Fin 3), (outsAt0 m c t).2.1 (ix3 (0 : Fin 1) r k) = G (ix3 (pb t) (ps t r) k))
    (t : Fin cfg0.N) : (dats m 0 c).flushed 7 t = ((cfg0.win 7).blk t).view.read (Elt Ideal) G := by
  rw [Value.flushed7]
  obtain ⟨e0, e1, e2⟩ := coordsFeatIdx t
  refine funext fun (y : S1x1024x3.Idx) => ?_
  obtain ⟨y0, r, k, rfl⟩ : ∃ (y0 : Fin 1) (r : Fin 1024) (k : Fin 3), y = ix3 y0 r k := ⟨y 0, y 1, y 2, eq_ix3 y⟩
  obtain rfl : y0 = 0 := Subsingleton.elim _ _
  refine Eq.trans (b := G (ix3 (pb t) (ps t r) k)) (h t r k) ?_
  rw [View.read_apply]
  show G _ = G _
  refine congrArg G (funext fun a => Fin.ext ?_)
  match a with
  | ⟨0, _⟩ => show t.val / 128 = win0_7.index t (0 : Fin 3) * 1 + 1 * 0; omega
  | ⟨1, _⟩ => show 1024 * (t.val % 128) + r.val = win0_7.index t (1 : Fin 3) * 1024 + 1 * r.val; omega
  | ⟨2, _⟩ => show k.val = win0_7.index t (2 : Fin 3) * 3 + 1 * k.val; omega

/-- An index of the normal array lies in point `t`'s block iff each coordinate lies in the block's range on its axis. -/
theorem mem_normalBlk (t : Fin cfg0.N) (i : S4x131072x3.Idx) :
    i ∈ ((cfg0.win 8).blk t).view.set ↔ ∀ a : Fin 3, win0_8.index t a * S1x1024x3.size a ≤ (i a).val ∧ (i a).val < win0_8.index t a * S1x1024x3.size a + S1x1024x3.size a := by
  show i ∈ ((View.whole main_v4_2).slice (win0_8.rect t)).set ↔ _
  rw [View.set_slice_whole, Rect.mem_set_unit]
  exact Iff.rfl

/-- The blocks tile the normal array: sample `s` of batch element `b` lies in the block of point `128 b + s / 1024`. -/
theorem normal_cover (i : S4x131072x3.Idx) :
    ∃ t : Fin cfg0.N, (cfg0.win 8).flush t = true ∧ i ∈ ((cfg0.win 8).blk t).view.set := by
  have h0 : (i 0).val < 4 := (i 0).isLt
  have h1 : (i 1).val < 131072 := (i 1).isLt
  have h2 : (i 2).val < 3 := (i 2).isLt
  have hN : cfg0.N = 512 := N_0
  obtain ⟨t, ht⟩ : ∃ t : Fin cfg0.N, t.val = 128 * (i 0).val + (i 1).val / 1024 := ⟨⟨_, by omega⟩, rfl⟩
  obtain ⟨e0, e1, e2⟩ := normalIdx t
  refine ⟨t, flush0_8 t, ?_⟩
  rw [mem_normalBlk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 3 ≤ (i 2).val ∧ (i 2).val < win0_8.index t (2 : Fin 3) * 3 + 3; omega

/-- What point `t` writes back to the normal array is `G` read through the point's block, once the point's output block is
    `G` read where the block lies. -/
theorem normal_flushed (c : Dev nD) (G : S4x131072x3.Idx → EReal)
    (h : ∀ (t : Fin cfg0.N) (r : Fin 1024) (k : Fin 3), (outsAt0 m c t).2.2 (ix3 (0 : Fin 1) r k) = G (ix3 (pb t) (ps t r) k))
    (t : Fin cfg0.N) : (dats m 0 c).flushed 8 t = ((cfg0.win 8).blk t).view.read (Elt Ideal) G := by
  rw [Value.flushed8]
  obtain ⟨e0, e1, e2⟩ := normalIdx t
  refine funext fun (y : S1x1024x3.Idx) => ?_
  obtain ⟨y0, r, k, rfl⟩ : ∃ (y0 : Fin 1) (r : Fin 1024) (k : Fin 3), y = ix3 y0 r k := ⟨y 0, y 1, y 2, eq_ix3 y⟩
  obtain rfl : y0 = 0 := Subsingleton.elim _ _
  refine Eq.trans (b := G (ix3 (pb t) (ps t r) k)) (h t r k) ?_
  rw [View.read_apply]
  show G _ = G _
  refine congrArg G (funext fun a => Fin.ext ?_)
  match a with
  | ⟨0, _⟩ => show t.val / 128 = win0_8.index t (0 : Fin 3) * 1 + 1 * 0; omega
  | ⟨1, _⟩ => show 1024 * (t.val % 128) + r.val = win0_8.index t (1 : Fin 3) * 1024 + 1 * r.val; omega
  | ⟨2, _⟩ => show k.val = win0_8.index t (2 : Fin 3) * 3 + 1 * k.val; omega

/-- FROM BLOCKS TO THE ARRAY, per output window: if every point's block is a whole-array function read where the block lies,
    the array after the run is that function. -/
theorem feat_final (c : Dev nD) (G : S4x131072x64.Idx → EReal)
    (h : ∀ (t : Fin cfg0.N) (r : Fin 1024) (d : Fin 64), (outsAt0 m c t).1 (ix3 (0 : Fin 1) r d) = G (ix3 (pb t) (ps t r) d)) :
    (dats m 0 c).arrAt 6 cfg0.N = G :=
  (dats m 0 c).arrAt_eq_of_cover 6 G (fun t _ => feat_flushed m c G h t) feat_cover
theorem coordsFeat_final (c : Dev nD) (G : S4x131072x3.Idx → EReal)
    (h : ∀ (t : Fin cfg0.N) (r : Fin 1024) (k : Fin 3), (outsAt0 m c t).2.1 (ix3 (0 : Fin 1) r k) = G (ix3 (pb t) (ps t r) k)) :
    (dats m 0 c).arrAt 7 cfg0.N = G :=
  (dats m 0 c).arrAt_eq_of_cover 7 G (fun t _ => coordsFeat_flushed m c G h t) coordsFeat_cover
theorem normal_final (c : Dev nD) (G : S4x131072x3.Idx → EReal)
    (h : ∀ (t : Fin cfg0.N) (r : Fin 1024) (k : Fin 3), (outsAt0 m c t).2.2 (ix3 (0 : Fin 1) r k) = G (ix3 (pb t) (ps t r) k)) :
    (dats m 0 c).arrAt 8 cfg0.N = G :=
  (dats m 0 c).arrAt_eq_of_cover 8 G (fun t _ => normal_flushed m c G h t) normal_cover

end Cert.FaceFeat.Blocks

end
-- ==== Proof.Args.lean ====
/-
  Names for the eight argument arrays of the kernel program as the launch memory holds them on a device, at their literal
  shapes, and the domain facts of the specification stated of them.
-/
import proofs.«413851_j32942399160428_3_alg».proof.Proof.Gen.KernelIdeal
import proofs.«413851_j32942399160428_3_alg».proof.Proof.Spec

set_option maxRecDepth 16384

noncomputable section

open scoped BigOperators

namespace Cert.FaceFeat.K

open Cert.KernelIdeal Idealize.ShloMosaic Idealize.ShloMosaic.TcCoe Idealize.SL.Sem

variable (m : (ℓ : Loc nD τ sig) → Buf (Elt Ideal) ℓ) (c : Dev nD)

/-- The points' coordinates, the subjects, the face table, the face ids, the weights, the signed distances, the hit
    positions and the vertex tables, as launched. -/
abbrev coordsA : Vec Ideal S4x131072x3 .f32 := m ((c : Thread nD τ).loc main_arg0)
abbrev idxA : Vec Ideal S4 .i32 := m ((c : Thread nD τ).loc main_arg1)
abbrev facesA : Vec Ideal S13776x3 .i32 := m ((c : Thread nD τ).loc main_arg2)
abbrev fidA : Vec Ideal S4x131072 .i32 := m ((c : Thread nD τ).loc main_arg3)
abbrev wA : Vec Ideal S4x131072x3 .f32 := m ((c : Thread nD τ).loc main_arg4)
abbrev sdfA : Vec Ideal S4x131072x1 .f32 := m ((c : Thread nD τ).loc main_arg5)
abbrev hitptA : Vec Ideal S4x131072x3 .f32 := m ((c : Thread nD τ).loc main_arg6)
abbrev booksA : Vec Ideal S256x6890x64 .f32 := m ((c : Thread nD τ).loc main_arg7)

/-- The launch memory is in the specification's domain on device `c`. -/
def Dom : Prop := Cert.FaceFeat.InDomain (idxA m c) (facesA m c) (fidA m c) (wA m c) (booksA m c)

end Cert.FaceFeat.K

end
-- ==== Proof.HostGlue.lean ====
/-
  The two arrays that the operations ahead of the kernel's region prepare, read entry by entry.

  Both are an indexed selection of rows of a table, made in three moves. An index word that is negative has the length of
  the axis added to it. A mask records where the resulting word lies between 0 and the last row. The rows are gathered
  with the word clamped into the axis, and wherever the mask is off a fill word stands in place of the gathered entry.
  * The hit faces' vertices `[4, 131072, 3]`: entry `(b, s, k)` is entry `k` of the face table's row that the face id of
    point `(b, s)` names; the fill is the most negative integer.
  * The subjects' vertex tables `[4, 6912, 64]`: for each `b` the table that subject `b` names, the fill a not-a-number
    word; the entries are then changed to the narrower float format, which is the identity on extended reals, and after
    row 6889 come 22 rows holding the integer 0 converted to a float, which is the real number 0.
  In the domain every index word is at least 0 and below the length of its axis, hence below 2³¹: it reads the same signed
  and unsigned, nothing is added to it, both range tests hold so the mask is on everywhere, and the clamp returns the word
  itself. So the first array is the face table's rows at the face ids, and the second is each subject's own table on the
  rows below 6890 and 0 on the 22 rows after them.

  Order: the facts on words and on a fold by `and` over ones; the operand index of each gather, axis by axis; then for the
  face ids, and again for the subjects, the start indices, the mask and the whole term at an index; and last that the
  array the region finds is that term, which is stated for any float instance since nothing in it depends on one.
-/
import proofs.«413851_j32942399160428_3_alg».proof.Proof.Gen.KernelIdeal.Frame
import proofs.«413851_j32942399160428_3_alg».proof.Proof.Args
import Idealize.ShloMosaic.Lib.StableHlo.Run
import Idealize.ShloMosaic.Lib.ValueIdx
import Idealize.ShloMosaic.Lib.Pipeline.Value
import Idealize.ShloMosaic.Lib.ReduceAll
import Idealize.ShloMosaic.Lib.KernelVsHost
import Idealize.ShloMosaic.Lib.StableHlo.Predicate

set_option maxRecDepth 16384

noncomputable section

open scoped BigOperators

namespace Cert.FaceFeat.HostGlue

open Cert.KernelIdeal Cert.KernelIdeal.Gen Idealize.ShloMosaic Idealize.ShloMosaic.TcCoe Idealize.SL.Sem Idealize.ShloMosaic.ValueIdx
open Cert.FaceFeat Cert.FaceFeat.K

/-! ## Words -/

/-- A word below 2³¹ is not negative, so the wrap of negative indices leaves it alone. -/
theorem wrap_eq (x N : BitVec 32) (hx : x.toNat < 2 ^ 31) :
    Scalar.select (IntOp.cmpi .slt x 0#32) (IntOp.addi x N) x = x := by
  unfold Scalar.select
  rw [if_neg]
  intro h
  have h' : x.toInt < (0#32 : BitVec 32).toInt := IntOp.cmpi_slt.mp h
  rw [StableHlo.Predicate.toInt_eq_toNat_of_lt hx, show (0#32 : BitVec 32).toInt = 0 from by decide] at h'
  omega

/-- A word between 0 and a bound below 2³¹ passes the two signed range tests. -/
theorem inRange_eq_one (x M : BitVec 32) (hM : M.toNat < 2 ^ 31) (hx : x.toNat ≤ M.toNat) :
    IntOp.andi (IntOp.cmpi .sge x 0#32) (IntOp.cmpi .sle x M) = 1#1 := by
  rw [IntOp.andi_eq_one, IntOp.cmpi_sge, IntOp.cmpi_sle, StableHlo.Predicate.toInt_eq_toNat_of_lt (a := x) (by omega),
    StableHlo.Predicate.toInt_eq_toNat_of_lt hM, show (0#32 : BitVec 32).toInt = 0 from by decide]
  omega

/-- A left fold by `and` from 1 over 1s is 1. -/
theorem foldl_andi_ones {ι : Type} (f : ι → BitVec 1) (l : List ι) (h : ∀ i ∈ l, f i = 1#1) :
    l.foldl (fun r i => IntOp.andi r (f i)) 1#1 = 1#1 := by
  induction l with
  | nil => rfl
  | cons a l ih =>
    rw [List.foldl_cons, h a List.mem_cons_self, show IntOp.andi (1#1 : BitVec 1) 1#1 = 1#1 from by decide]
    exact ih fun i hi => h i (List.mem_cons_of_mem _ hi)

/-- A reduction by `and`, from 1, of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun i _ => hx i

/-! ## The two gathers read at an index -/

/-- The face gather: result entry `(b, s, k)` is the face table's entry `k` of the row the start index at `(b, s)` names. -/
theorem faceGather_apply (faces : IVec S13776x3 32) (idx : IVec S4x131072x1 32) (b : Fin 4) (s : Fin 131072) (k : Fin 3) :
    Host.gather gather_S13776x3_S4x131072x1_S4x131072x3_2_0_n_n_0_2_13 faces idx (ix3 b s k)
      = faces (ix2 (rowOf 13776 (by decide) (idx (ix3 b s (0 : Fin 1)))) k) := by
  unfold Host.gather
  congr 1
  funext a
  refine Fin.ext ?_
  match a with
  | ⟨0, _⟩ =>
    show gather_S13776x3_S4x131072x1_S4x131072x3_2_0_n_n_0_2_13.start (ix3 b s k) idx 0
      + gather_S13776x3_S4x131072x1_S4x131072x3_2_0_n_n_0_2_13.batchCoord (ix3 b s k) 0
      + gather_S13776x3_S4x131072x1_S4x131072x3_2_0_n_n_0_2_13.offCoord (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S13776x3_S4x131072x1_S4x131072x3_2_0_n_n_0_2_13.startIndexMap from List.mem_singleton.mpr rfl)]
    have hsi : gather_S13776x3_S4x131072x1_S4x131072x3_2_0_n_n_0_2_13.siIdx (ix3 b s k)
        ⟨List.idxOf (0 : Fin 2) gather_S13776x3_S4x131072x1_S4x131072x3_2_0_n_n_0_2_13.startIndexMap,
          List.idxOf_lt_length_iff.2 (List.mem_singleton.mpr rfl)⟩ = ix3 b s (0 : Fin 1) := by
      funext e; refine Fin.ext ?_
      match e with
      | ⟨0, _⟩ => rfl
      | ⟨1, _⟩ => rfl
      | ⟨2, _⟩ => rfl
    rw [hsi]
    rfl
  | ⟨1, _⟩ =>
    show gather_S13776x3_S4x131072x1_S4x131072x3_2_0_n_n_0_2_13.start (ix3 b s k) idx 1
      + gather_S13776x3_S4x131072x1_S4x131072x3_2_0_n_n_0_2_13.batchCoord (ix3 b s k) 1
      + gather_S13776x3_S4x131072x1_S4x131072x3_2_0_n_n_0_2_13.offCoord (ix3 b s k) 1 = k.val
    rw [GatherDims.batchCoord_eq_zero _ _ _ List.not_mem_nil]
    unfold GatherDims.start
    rw [dif_neg (show (1 : Fin 2) ∉ gather_S13776x3_S4x131072x1_S4x131072x3_2_0_n_n_0_2_13.startIndexMap from by decide)]
    unfold GatherDims.offCoord
    rw [dif_pos (show (1 : Fin 2) ∈ gather_S13776x3_S4x131072x1_S4x131072x3_2_0_n_n_0_2_13.sKept from by decide)]
    simp only [Nat.add_zero, Nat.zero_add]
    rfl

/-- The table gather: result entry `(b, u, d)` is entry `(u, d)` of the table the start index at `b` names. -/
theorem tableGather_apply {α : Type} (books : S256x6890x64.Idx → α) (idx : IVec S4x1 32) (b : Fin 4) (u : Fin 6890) (d : Fin 64) :
    Host.gather gather_S256x6890x64_S4x1_S4x6890x64_12_0_n_n_0_1_1689064 books idx (ix3 b u d)
      = books (ix3 (rowOf 256 (by decide) (idx (ix2 b (0 : Fin 1)))) u d) := by
  unfold Host.gather
  congr 1
  funext a
  refine Fin.ext ?_
  match a with
  | ⟨0, _⟩ =>
    show gather_S256x6890x64_S4x1_S4x6890x64_12_0_n_n_0_1_1689064.start (ix3 b u d) idx 0
      + gather_S256x6890x64_S4x1_S4x6890x64_12_0_n_n_0_1_1689064.batchCoord (ix3 b u d) 0
      + gather_S256x6890x64_S4x1_S4x6890x64_12_0_n_n_0_1_1689064.offCoord (ix3 b u d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S256x6890x64_S4x1_S4x6890x64_12_0_n_n_0_1_1689064.startIndexMap from List.mem_singleton.mpr rfl)]
    have hsi : gather_S256x6890x64_S4x1_S4x6890x64_12_0_n_n_0_1_1689064.siIdx (ix3 b u d)
        ⟨List.idxOf (0 : Fin 3) gather_S256x6890x64_S4x1_S4x6890x64_12_0_n_n_0_1_1689064.startIndexMap,
          List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    show gather_S256x6890x64_S4x1_S4x6890x64_12_0_n_n_0_1_1689064.start (ix3 b u d) idx 1
      + gather_S256x6890x64_S4x1_S4x6890x64_12_0_n_n_0_1_1689064.batchCoord (ix3 b u d) 1
      + gather_S256x6890x64_S4x1_S4x6890x64_12_0_n_n_0_1_1689064.offCoord (ix3 b u d) 1 = u.val
    rw [GatherDims.batchCoord_eq_zero _ _ _ List.not_mem_nil]
    unfold GatherDims.start
    rw [dif_neg (show (1 : Fin 3) ∉ gather_S256x6890x64_S4x1_S4x6890x64_12_0_n_n_0_1_1689064.startIndexMap from by decide)]
    unfold GatherDims.offCoord
    rw [dif_pos (show (1 : Fin 3) ∈ gather_S256x6890x64_S4x1_S4x6890x64_12_0_n_n_0_1_1689064.sKept from by decide)]
    simp only [Nat.add_zero, Nat.zero_add]
    rfl
  | ⟨2, _⟩ =>
    show gather_S256x6890x64_S4x1_S4x6890x64_12_0_n_n_0_1_1689064.start (ix3 b u d) idx 2
      + gather_S256x6890x64_S4x1_S4x6890x64_12_0_n_n_0_1_1689064.batchCoord (ix3 b u d) 2
      + gather_S256x6890x64_S4x1_S4x6890x64_12_0_n_n_0_1_1689064.offCoord (ix3 b u d) 2 = d.val
    rw [GatherDims.batchCoord_eq_zero _ _ _ List.not_mem_nil]
    unfold GatherDims.start
    rw [dif_neg (show (2 : Fin 3) ∉ gather_S256x6890x64_S4x1_S4x6890x64_12_0_n_n_0_1_1689064.startIndexMap from by decide)]
    unfold GatherDims.offCoord
    rw [dif_pos (show (2 : Fin 3) ∈ gather_S256x6890x64_S4x1_S4x6890x64_12_0_n_n_0_1_1689064.sKept from by decide)]
    simp only [Nat.add_zero, Nat.zero_add]
    rfl

/-! ## The face ids -/

/-- The start indices of the face gather: the face ids, `13776` added where negative, as a column. -/
def faceStarts (fid : IVec S4x131072 32) : IVec S4x131072x1 32 :=
  broadcastInDim S4x131072x1 ![0, 1] bcast_S4x131072_S4x131072x1_0_1
    (select (cmpi .slt fid (broadcastInDim S4x131072 ![] bcast_S_S4x131072 (constantI S_ 32 0#32)))
      (addi fid (broadcastInDim S4x131072 ![] bcast_S_S4x131072 (constantI S_ 32 13776#32))) fid)

/-- Where a start index is in `[0, 13775]`. -/
def faceMask (w : IVec S4x131072x1 32) : IVec S4x131072 1 :=
  Host.reduce IntOp.andi
    (andi (cmpi .sge w (broadcastInDim S4x131072x1 ![] bcast_S_S4x131072x1 (constantI S_ 32 0#32)))
      (cmpi .sle w (broadcastInDim S4x131072x1 ![0, 1, 2] bcast_S1x1x1_S4x131072x1_0_1_2
        (broadcastInDim S1x1x1 ![2] bcast_S1_S1x1x1_2 (constantI S1 32 13775#32)))))
    (constantI S_ 1 1#1) reducesTo_S4x131072x1_S4x131072_d2 h_S_

/-- The array the region's fifth window reads, as a function of the face table and the face ids. -/
def faceTerm (faces : IVec S13776x3 32) (fid : IVec S4x131072 32) : IVec S4x131072x3 32 :=
  select (broadcastInDim S4x131072x3 ![0, 1] bcast_S4x131072_S4x131072x3_0_1 (faceMask (faceStarts fid)))
    (Host.gather gather_S13776x3_S4x131072x1_S4x131072x3_2_0_n_n_0_2_13 faces (faceStarts fid))
    (broadcastInDim S4x131072x3 ![] bcast_S_S4x131072x3 (constantI S_ 32 2147483648#32))

/-- A `[4, 131072]` array laid out as a `[4, 131072, 1]` column reads the same at `(b, s)`. -/
theorem bcastCol_apply {α : Type} (h : S4x131072.BroadcastsInDim S4x131072x1 ![0, 1]) (x : S4x131072.Idx → α)
    (b : Fin 4) (s : Fin 131072) (z : Fin 1) : broadcastInDim S4x131072x1 ![0, 1] h x (ix3 b s z) = x (ix2 b s) := by
  unfold broadcastInDim
  congr 1
  funext a
  match a with
  | ⟨0, _⟩ => rfl
  | ⟨1, _⟩ => rfl

/-- A `[4, 131072]` array repeated along a third axis of 3 reads, at `(b, s, k)`, its entry `(b, s)`. -/
theorem bcastTri_apply {α : Type} (h : S4x131072.BroadcastsInDim S4x131072x3 ![0, 1]) (x : S4x131072.Idx → α)
    (b : Fin 4) (s : Fin 131072) (k : Fin 3) : broadcastInDim S4x131072x3 ![0, 1] h x (ix3 b s k) = x (ix2 b s) := by
  unfold broadcastInDim
  congr 1
  funext a
  match a with
  | ⟨0, _⟩ => rfl
  | ⟨1, _⟩ => rfl

/-- A face id below 2³¹ is its own start index. -/
theorem faceStarts_apply (fid : IVec S4x131072 32) (b : Fin 4) (s : Fin 131072) (z : Fin 1)
    (h : (fid (ix2 b s)).toNat < 2 ^ 31) : faceStarts fid (ix3 b s z) = fid (ix2 b s) := by
  unfold faceStarts
  rw [bcastCol_apply]
  exact wrap_eq (fid (ix2 b s)) 13776#32 h

/-- Face ids below 13776 are all in range. -/
theorem faceMask_apply (fid : IVec S4x131072 32) (h : ∀ i, (fid i).toNat < 13776) (j : S4x131072.Idx) :
    faceMask (faceStarts fid) j = 1#1 := by
  refine reduce_andi_ones _ _ _ _ (fun i => ?_) rfl j
  obtain ⟨b, s, z, rfl⟩ : ∃ b s z, i = ix3 b s z := ⟨i 0, i 1, i 2, eq_ix3 i⟩
  have hb := h (ix2 b s)
  show IntOp.andi (IntOp.cmpi .sge (faceStarts fid (ix3 b s z)) 0#32) (IntOp.cmpi .sle (faceStarts fid (ix3 b s z)) 13775#32) = 1#1
  rw [faceStarts_apply fid b s z (by omega)]
  exact inRange_eq_one _ _ (by decide) (by show _ ≤ 13775; omega)

/-- In the domain the array is the face table's row at the face id. -/
theorem faceTerm_apply (faces : IVec S13776x3 32) (fid : IVec S4x131072 32) (h : ∀ i, (fid i).toNat < 13776)
    (b : Fin 4) (s : Fin 131072) (k : Fin 3) :
    faceTerm faces fid (ix3 b s k) = faces (ix2 (rowOf 13776 (by decide) (fid (ix2 b s))) k) := by
  have hb := h (ix2 b s)
  unfold faceTerm
  rw [select_apply, bcastTri_apply, faceMask_apply fid h, select_one, faceGather_apply, faceStarts_apply fid b s 0 (by omega)]

/-- The array the region's fifth window reads is that term of the launched face table and face ids. -/
theorem faceArr_eq {F : FTy → Type} [FloatOps F] (μ : (ℓ : Loc nD τ sig) → Buf (Elt F) ℓ) (c : Dev nD) :
    (V μ c main_v0 : S4x131072x3.Idx → BitVec 32)
      = faceTerm (μ ((c : Thread nD τ).loc main_arg2)) (μ ((c : Thread nD τ).loc main_arg3)) := by
  dsimp only [Gen.V]
  simp only [Gen.hostOps0, Gen.hostOps0_1, Gen.hostOps0_2, Gen.hostOps0_3, List.flatten_cons, List.flatten_nil, List.append_nil,
    List.cons_append, List.nil_append]
  after_results_simp
  try simp only [StableHlo.TRef.ofBuf, StableHlo.TRef.toBuf, cast_eq]
  rfl

/-! ## The subjects' tables -/

/-- The start indices of the table gather: the subjects, `256` added where negative, as a column. -/
def tableStarts (idx : IVec S4 32) : IVec S4x1 32 :=
  broadcastInDim S4x1 ![0] bcast_S4_S4x1_0
    (select (cmpi .slt idx (broadcastInDim S4 ![] bcast_S_S4 (constantI S_ 32 0#32)))
      (addi idx (broadcastInDim S4 ![] bcast_S_S4 (constantI S_ 32 256#32))) idx)

/-- Where a start index is in `[0, 255]`. -/
def tableMask (w : IVec S4x1 32) : IVec S4 1 :=
  Host.reduce IntOp.andi
    (andi (cmpi .sge w (broadcastInDim S4x1 ![] bcast_S_S4x1 (constantI S_ 32 0#32)))
      (cmpi .sle w (broadcastInDim S4x1 ![0, 1] bcast_S1x1_S4x1_0_1
        (broadcastInDim S1x1 ![1] bcast_S1_S1x1_1 (constantI S1 32 255#32)))))
    (constantI S_ 1 1#1) reducesTo_S4x1_S4_d1 h_S_

section
variable {F : FTy → Type} [FloatOps F]

/-- The four subjects' tables `[4, 6890, 64]`: the gathered table where the start index is in range, a fill word elsewhere. -/
def tableTaken (books : FVec F S256x6890x64 .f32) (idx : IVec S4 32) : FVec F S4x6890x64 .f32 :=
  select (broadcastInDim S4x6890x64 ![0] bcast_S4_S4x6890x64_0 (tableMask (tableStarts idx)))
    (Host.gather gather_S256x6890x64_S4x1_S4x6890x64_12_0_n_n_0_1_1689064 books (tableStarts idx))
    (broadcastInDim S4x6890x64 ![] bcast_S_S4x6890x64 (constant (F := F) S_ .f32 0x7FC00000#32))

/-- The array the region's sixth window reads: those tables in the narrower format, 22 rows of the integer 0 appended. -/
def tableTerm (books : FVec F S256x6890x64 .f32) (idx : IVec S4 32) : FVec F S4x6912x64 .bf16 :=
  pad S4x6912x64 ![0, 0, 0] ![0, 22, 0] ![0, 0, 0] (truncf .bf16 (tableTaken books idx) bitsLt_bf16_f32)
    (sitofp (F := F) .bf16 (constantI S_ 32 0#32)) pads_S4x6890x64_S4x6912x64_000_0220_000 h_S_

end

/-- A `[4]` array as a `[4, 1]` column reads the same at `b`. -/
theorem bcastCol4_apply {α : Type} (h : S4.BroadcastsInDim S4x1 ![0]) (x : S4.Idx → α) (b : Fin 4) (z : Fin 1) :
    broadcastInDim S4x1 ![0] h x (ix2 b z) = x (ix1 b) := by
  unfold broadcastInDim
  congr 1
  funext a
  match a with
  | ⟨0, _⟩ => rfl

/-- A `[4]` array repeated over `[6890, 64]` reads, at `(b, u, d)`, its entry `b`. -/
theorem bcastTab_apply {α : Type} (h : S4.BroadcastsInDim S4x6890x64 ![0]) (x : S4.Idx → α) (b : Fin 4) (u : Fin 6890)
    (d : Fin 64) : broadcastInDim S4x6890x64 ![0] h x (ix3 b u d) = x (ix1 b) := by
  unfold broadcastInDim
  congr 1
  funext a
  match a with
  | ⟨0, _⟩ => rfl

/-- A subject below 2³¹ is its own start index. -/
theorem tableStarts_apply (idx : IVec S4 32) (b : Fin 4) (z : Fin 1) (h : (idx (ix1 b)).toNat < 2 ^ 31) :
    tableStarts idx (ix2 b z) = idx (ix1 b) := by
  unfold tableStarts
  rw [bcastCol4_apply]
  exact wrap_eq (idx (ix1 b)) 256#32 h

/-- Subjects below 256 are all in range. -/
theorem tableMask_apply (idx : IVec S4 32) (h : ∀ i, (idx i).toNat < 256) (j : S4.Idx) : tableMask (tableStarts idx) j = 1#1 := by
  refine reduce_andi_ones _ _ _ _ (fun i => ?_) rfl j
  obtain ⟨b, z, rfl⟩ : ∃ b z, i = ix2 b z := ⟨i 0, i 1, eq_ix2 i⟩
  have hb := h (ix1 b)
  show IntOp.andi (IntOp.cmpi .sge (tableStarts idx (ix2 b z)) 0#32) (IntOp.cmpi .sle (tableStarts idx (ix2 b z)) 255#32) = 1#1
  rw [tableStarts_apply idx b z (by omega)]
  exact inRange_eq_one _ _ (by decide) (by show _ ≤ 255; omega)

/-- In the domain the gathered tables are the subjects' own. -/
theorem tableTaken_apply (books : FVec Ideal S256x6890x64 .f32) (idx : IVec S4 32) (h : ∀ i, (idx i).toNat < 256)
    (b : Fin 4) (u : Fin 6890) (d : Fin 64) :
    tableTaken books idx (ix3 b u d) = books (ix3 (rowOf 256 (by decide) (idx (ix1 b))) u d) := by
  have hb := h (ix1 b)
  unfold tableTaken
  rw [select_apply, bcastTab_apply, tableMask_apply idx h, select_one, tableGather_apply, tableStarts_apply idx b 0 (by omega)]

/-- In the domain the padded array is the subject's table on rows below 6890 and zero on the 22 rows after. -/
theorem tableTerm_apply (books : FVec Ideal S256x6890x64 .f32) (idx : IVec S4 32) (h : ∀ i, (idx i).toNat < 256)
    (b : Fin 4) (u : Fin 6912) (d : Fin 64) :
    tableTerm books idx (ix3 b u d)
      = if hu : u.val < 6890 then books (ix3 (rowOf 256 (by decide) (idx (ix1 b))) (⟨u.val, hu⟩ : Fin 6890) d) else 0 := by
  unfold tableTerm
  split
  · next hu =>
    rw [pad_apply_of_inside _ _ _ _ _ _ _ (ix3 b u d) (ix3 b (⟨u.val, hu⟩ : Fin 6890) d) (fun a => by
      match a with
      | ⟨0, _⟩ => show b.val = 0 + b.val * (0 + 1); omega
      | ⟨1, _⟩ => show u.val = 0 + u.val * (0 + 1); omega
      | ⟨2, _⟩ => show d.val = 0 + d.val * (0 + 1); omega)]
    rw [truncf_apply, tableTaken_apply books idx h]
  · next hu =>
    rw [pad_apply_of_not_inside _ _ _ _ _ _ _ (ix3 b u d) (1 : Fin 3) (fun h3 => hu (by
      have h4 : (u.val - 0) / (0 + 1) < 6890 := h3.2.2
      omega))]
    show (((0#32 : BitVec 32).toInt : ℝ) : EReal) = 0
    rw [show (0#32 : BitVec 32).toInt = 0 from by decide, Int.cast_zero, EReal.coe_zero]

/-- The array the region's sixth window reads is that term of the launched vertex tables and subjects. -/
theorem tableArr_eq {F : FTy → Type} [FloatOps F] (μ : (ℓ : Loc nD τ sig) → Buf (Elt F) ℓ) (c : Dev nD) :
    (V μ c main_v3 : S4x6912x64.Idx → F .bf16)
      = tableTerm (F := F) (μ ((c : Thread nD τ).loc main_arg7)) (μ ((c : Thread nD τ).loc main_arg1)) := by
  dsimp only [Gen.V]
  simp only [Gen.hostOps0, Gen.hostOps0_1, Gen.hostOps0_2, Gen.hostOps0_3, List.flatten_cons, List.flatten_nil, List.append_nil,
    List.cons_append, List.nil_append]
  after_results_simp
  try simp only [StableHlo.TRef.ofBuf, StableHlo.TRef.toBuf, cast_eq]
  rfl

/-! ## The two arrays as the region finds them -/

variable (m : (ℓ : Loc nD τ sig) → Buf (Elt Ideal) ℓ)

/-- The hit faces' vertices, as the kernel's region finds them: in the domain, row `fid[b, s]` of the face table. -/
theorem faceArr_apply (c : Dev nD) (hd : Dom m c) (b : Fin 4) (s : Fin 131072) (k : Fin 3) :
    (V m c main_v0 : Vec Ideal S4x131072x3 .i32) (ix3 b s k) = facesA m c (ix2 (rowOf 13776 (by decide) (fidA m c (ix2 b s))) k) := by
  have hd' : InDomain (idxA m c) (facesA m c) (fidA m c) (wA m c) (booksA m c) := hd
  exact (congrFun (faceArr_eq m c) (ix3 b s k)).trans (faceTerm_apply (facesA m c) (fidA m c) hd'.fid_lt b s k)

/-- The padded vertex table, as the kernel's region finds it: in the domain, subject `idx[b]`'s table on rows below 6890 and
    zero on the 22 rows after. -/
theorem tableArr_apply (c : Dev nD) (hd : Dom m c) (b : Fin 4) (u : Fin 6912) (d : Fin 64) :
    (V m c main_v3 : Vec Ideal S4x6912x64 .bf16) (ix3 b u d)
      = if h : u.val < 6890 then booksA m c (ix3 (rowOf 256 (by decide) (idxA m c (ix1 b))) (⟨u.val, h⟩ : Fin 6890) d) else 0 := by
  have hd' : InDomain (idxA m c) (facesA m c) (fidA m c) (wA m c) (booksA m c) := hd
  exact (congrFun (tableArr_eq m c) (ix3 b u d)).trans (tableTerm_apply (booksA m c) (idxA m c) hd'.idx_lt b u d)

end Cert.FaceFeat.HostGlue

end
-- ==== Proof.PointSmall.lean ====
/-
  One grid point's two small output blocks, entry by entry.

  A grid point holds 1024 sample rows. Its input blocks are the rows' coordinates, hit positions and barycentric weights,
  each `[1, 1024, 3]`, and the rows' signed distances, `[1, 1024, 1]`. Besides the vertex features the point's body leaves
  two blocks of shape `[1, 1024, 3]`, each written by a single store that covers the whole block, so what the block holds
  afterwards is that store's value, computed from the input blocks as they were loaded.

  * THE NORMAL. With the leading unit axis dropped, the offset `d = hit position - coordinates` is a `[1024, 3]` block.
    Each row's squared length is the sum along the row of the entries of `d * d`; its square root, taken as a column and
    floored entrywise by the constant with binary word 0x358637BD, is spread back over the row's three columns, and `d` is
    divided by it. So entry `(0, r, k)` is `d(r, k)` over the larger of `sqrt (∑ j, d(r, j) * d(r, j))` and the constant, and
    depends on row `r` of the two blocks only. The constant stays a word: it is never evaluated.
  * THE COORDINATE FEATURES. The weights' block loses its leading unit axis and its first column; the two columns left are
    joined along the column axis with the signed distances' single column. So in entry `(0, r, k)` columns `k = 0, 1` hold
    weight `k + 1` of row `r` and column `k = 2` holds the row's signed distance: no arithmetic at all.

  The module first reads the layout steps at an index (a vector cast to a column, a column spread over a row, the two-piece
  join, the column slice), then each stored value at `(0, r, k)`, then identifies what the run leaves in each block with the
  stored value, and last states the two blocks at an index as functions of the input blocks.
-/
import proofs.«413851_j32942399160428_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.FaceFeat.Point

open Cert.KernelIdeal Cert.KernelIdeal.Gen Idealize.ShloMosaic Idealize.ShloMosaic.TcCoe Idealize.SL.Sem Idealize.ShloMosaic.ValueIdx

/-! ## Two layout readings at any extents -/

/-- A vector of `a` entries cast to a column `[a, 1]` reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` columns reads, at `(p, q)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The normal block, entry by entry -/

/-- The offset from a row's coordinates to its hit position, as a `[1024, 3]` block. -/
def offset (x0 x1 : Vec Ideal S1x1024x3 .f32) : FVec Ideal S1024x3 .f32 :=
  subf (shapeCast S1024x3 x1 shapeCasts_S1x1024x3_S1024x3) (shapeCast S1024x3 x0 shapeCasts_S1x1024x3_S1024x3)

theorem offset_apply (x0 x1 : Vec Ideal S1x1024x3 .f32) (r : Fin 1024) (k : Fin 3) :
    offset x0 x1 (ix2 r k) = x1 (ix3 (0 : Fin 1) r k) - x0 (ix3 (0 : Fin 1) r k) := by
  show shapeCast S1024x3 x1 shapeCasts_S1x1024x3_S1024x3 (ix2 r k) - shapeCast S1024x3 x0 shapeCasts_S1x1024x3_S1024x3 (ix2 r k) = _
  rw [shapeCast_1ab_ab_apply, shapeCast_1ab_ab_apply]

/-- The source index of the row sum over row `r` with column `j` put back is `(r, j)`. -/
theorem lift_row (r : Fin 1024) (j : Fin 3) : reduces_S1024x3_S1024.lift (ix1 r) j = ix2 r j :=
  funext fun a => Fin.ext (by match a with | ⟨0, _⟩ => rfl | ⟨1, _⟩ => rfl)

/-- The sum along a row of the entries' squares. -/
theorem sqsum_apply (d : FVec Ideal S1024x3 .f32) (r : Fin 1024) :
    multiReduction .add [1] S1024 (mulf d d) 0x00000000#32 reduces_S1024x3_S1024 (.inl rfl) rfl (ix1 r)
      = ∑ j : Fin 3, d (ix2 r j) * d (ix2 r j) := by
  refine (Ideal.multiReduction_add_single (mulf d d) 0x00000000#32 reduces_S1024x3_S1024 (.inl rfl) rfl (ix1 r)).trans ?_
  refine Finset.sum_congr rfl fun j _ => ?_
  exact congrArg (fun y => d y * d y) (lift_row r j)

/-- The larger of a row's Euclidean length and the floor constant, one entry per row, as a column. -/
def flooredLen (d : FVec Ideal S1024x3 .f32) : FVec Ideal S1024x1 .f32 :=
  maximumf (sqrt (shapeCast S1024x1 (multiReduction .add [1] S1024 (mulf d d) 0x00000000#32 reduces_S1024x3_S1024 (.inl rfl) rfl) shapeCasts_S1024_S1024x1))
    (broadcast S1024x1 (Scalar.ofBits .f32 0x358637BD#32))

theorem flooredLen_apply (d : FVec Ideal S1024x3 .f32) (r : Fin 1024) (u : Fin 1) :
    flooredLen d (ix2 r u) = max (Ideal.sqrt (∑ j : Fin 3, d (ix2 r j) * d (ix2 r j))) (Ideal.ofBits .f32 0x358637BD#32) := by
  show max (Ideal.sqrt (shapeCast S1024x1 (multiReduction .add [1] S1024 (mulf d d) 0x00000000#32 reduces_S1024x3_S1024 (.inl rfl) rfl) shapeCasts_S1024_S1024x1 (ix2 r u)))
      (Ideal.ofBits .f32 0x358637BD#32) = _
  rw [shapeCast_a_a1_apply, sqsum_apply]

/-- The stored normal block at `(0, r, k)`: the offset's entry over its row's floored length. -/
theorem normal_pay (x0 x1 : Vec Ideal S1x1024x3 .f32) (r : Fin 1024) (k : Fin 3) :
    k0_pay6 (F := Ideal) x1 x0 (ix3 (0 : Fin 1) r k)
      = Ideal.div (x1 (ix3 (0 : Fin 1) r k) - x0 (ix3 (0 : Fin 1) r k))
          (max (Ideal.sqrt (∑ j : Fin 3, (x1 (ix3 (0 : Fin 1) r j) - x0 (ix3 (0 : Fin 1) r j)) * (x1 (ix3 (0 : Fin 1) r j) - x0 (ix3 (0 : Fin 1) r j))))
            (Ideal.ofBits .f32 0x358637BD#32)) := by
  show shapeCast S1x1024x3 (divf (offset x0 x1) (broadcastTo S1024x3 (flooredLen (offset x0 x1)) broadcasts_S1024x1_S1024x3))
      shapeCasts_S1024x3_S1x1024x3 (ix3 (0 : Fin 1) r k) = _
  rw [shapeCast_ab_1ab_apply, divf_apply, broadcastTo_a1_ab_apply, flooredLen_apply]
  simp only [offset_apply]

/-! ## The coordinate-feature block, entry by entry -/

/-- Two columns followed by one: columns 0 and 1 of the three read the first piece. -/
theorem concat_left {α : Type} (A : S1024x2.Idx → α) (B : S1024x1.Idx → α) (r : Fin 1024) (k : Fin 3) (h : k.val < 2) :
    concatenate S1024x3 1 [⟨S1024x2, A⟩, ⟨S1024x1, B⟩] concatenates_S1024x2_S1024x1_S1024x3_d1 (ix2 r k) = A (ix2 r ⟨k.val, h⟩) :=
  concatenate_pair_apply_left (t := S1024x3) (s₁ := S1024x2) (s₂ := S1024x1) 1 A B concatenates_S1024x2_S1024x1_S1024x3_d1 (ix2 r k) rfl (ix2 r ⟨k.val, h⟩)
    fun b => by match b with | ⟨0, _⟩ => rfl | ⟨1, _⟩ => rfl

/-- … and column 2 reads the second piece's one column. -/
theorem concat_right {α : Type} (A : S1024x2.Idx → α) (B : S1024x1.Idx → α) (r : Fin 1024) (k : Fin 3) (h : ¬k.val < 2) :
    concatenate S1024x3 1 [⟨S1024x2, A⟩, ⟨S1024x1, B⟩] concatenates_S1024x2_S1024x1_S1024x3_d1 (ix2 r k) = B (ix2 r (0 : Fin 1)) :=
  concatenate_pair_apply_right (t := S1024x3) (s₁ := S1024x2) (s₂ := S1024x1) 1 A B concatenates_S1024x2_S1024x1_S1024x3_d1 (ix2 r k) rfl rfl (ix2 r (0 : Fin 1))
    (fun b hb => by match b with | ⟨0, _⟩ => rfl | ⟨1, _⟩ => exact absurd rfl hb)
    (by show 0 + 2 = k.val
        have := k.isLt; omega)

/-- The last two of three columns: column `j` of the slice is column `j + 1` of the source. -/
theorem tail_cols_apply {α : Type} (w : S1024x3.Idx → α) (r : Fin 1024) (j : Fin 2) :
    extractStridedSlice S1024x2 ![0, 1] w slices_S1024x3_o0_1_S1024x2 (ix2 r j) = w (ix2 r (⟨j.val + 1, by omega⟩ : Fin 3)) :=
  slice2_axis1_apply 1 w slices_S1024x3_o0_1_S1024x2 r j _ (Nat.add_comm _ _)

/-- The stored coordinate-feature block at `(0, r, k)`: columns 0 and 1 are the weights' columns 1 and 2, column 2 the signed distance. -/
theorem coords_pay (x2 : Vec Ideal S1x1024x3 .f32) (x3 : Vec Ideal S1x1024x1 .f32) (r : Fin 1024) (k : Fin 3) :
    k0_pay1 (F := Ideal) (k0_pay7 x2) x3 (ix3 (0 : Fin 1) r k)
      = if h : k.val < 2 then x2 (ix3 (0 : Fin 1) r (⟨k.val + 1, by omega⟩ : Fin 3)) else x3 (ix3 (0 : Fin 1) r (0 : Fin 1)) := by
  show shapeCast S1x1024x3 (concatenate S1024x3 1
      [⟨S1024x2, extractStridedSlice S1024x2 ![0, 1] (shapeCast S1024x3 x2 shapeCasts_S1x1024x3_S1024x3) slices_S1024x3_o0_1_S1024x2⟩,
        ⟨S1024x1, shapeCast S1024x1 x3 shapeCasts_S1x1024x1_S1024x1⟩] concatenates_S1024x2_S1024x1_S1024x3_d1)
      shapeCasts_S1024x3_S1x1024x3 (ix3 (0 : Fin 1) r k) = _
  rw [shapeCast_ab_1ab_apply]
  by_cases h : k.val < 2
  · rw [dif_pos h, concat_left _ _ r k h, tail_cols_apply, shapeCast_1ab_ab_apply]
  · rw [dif_neg h, concat_right _ _ r k h, shapeCast_1ab_ab_apply]

variable (c : Dev nD) (i : grid0.Coords)
  (arg2 : Memref sig .tc .vmem S1x1024x3 .f32) (harg2 : arg2.IsWhole) (arg3 : Memref sig .tc .vmem S1x1024x3 .f32) (harg3 : arg3.IsWhole)
  (arg4 : Memref sig .tc .vmem S1x1024x3 .f32) (harg4 : arg4.IsWhole) (arg5 : Memref sig .tc .vmem S1x1024x1 .f32) (harg5 : arg5.IsWhole)
  (arg6 : Memref sig .tc .vmem S1x1024x3 .i32) (harg6 : arg6.IsWhole) (arg7 : Memref sig .tc .vmem S1x6912x64 .bf16) (harg7 : arg7.IsWhole)
  (arg8 : Memref sig .tc .vmem S1x1024x64 .f32) (harg8 : arg8.IsWhole) (arg9 : Memref sig .tc .vmem S1x1024x3 .f32) (harg9 : arg9.IsWhole)
  (arg10 : Memref sig .tc .vmem S1x1024x3 .f32) (harg10 : arg10.IsWhole)
  (x0 x1 x2 : Vec Ideal S1x1024x3 .f32) (x3 : Vec Ideal S1x1024x1 .f32) (x4 : Vec Ideal S1x1024x3 .i32) (x5 : Vec Ideal S1x6912x64 .bf16)

/-! ## What the run leaves in each block is the one covering store's value -/

/-- The stores start at the block's origin. -/
theorem origin3 : (![0, 0, 0] : Fin 3 → Nat) = fun _ => 0 := funext fun a => by fin_cases a <;> rfl

/-- The normal's block ends holding the stored value computed from the loaded hit positions and coordinates: the loads read
    the whole input blocks, and the one store covers the whole output block. -/
theorem normal_piece :
    out0_A_8 (F := Ideal) c i arg2 harg2 arg3 harg3 arg4 harg4 arg5 harg5 arg6 harg6 arg7 harg7 arg8 harg8 arg9 harg9 arg10 harg10 x0 x1 x2 x3 x4 x5 = k0_pay6 x1 x0 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero origin3]
  simp only [View.readAt_eq_ld, harg2.read_unread, harg3.read_unread, View.ld_unit_zero (S := S1x1024x3) origin3]

/-- The coordinate features' block ends holding the stored value computed from the loaded weights and signed distances. -/
theorem coords_piece :
    out0_A_7 (F := Ideal) c i arg2 harg2 arg3 harg3 arg4 harg4 arg5 harg5 arg6 harg6 arg7 harg7 arg8 harg8 arg9 harg9 arg10 harg10 x0 x1 x2 x3 x4 x5 = k0_pay1 (k0_pay7 x2) x3 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero origin3]
  simp only [View.readAt_eq_ld, harg4.read_unread, harg5.read_unread, View.ld_unit_zero (S := S1x1024x3) origin3,
    View.ld_unit_zero (S := S1x1024x1) origin3]

/-! ## The two blocks at an index -/

/-- ONE POINT'S NORMAL BLOCK at row `r`, coordinate `k`: the offset over the larger of its length and the floor constant
    (`x0` the coordinates' block, `x1` the hit positions'). -/
theorem normal_point (r : Fin 1024) (k : Fin 3) :
    out0_A_8 (F := Ideal) c i arg2 harg2 arg3 harg3 arg4 harg4 arg5 harg5 arg6 harg6 arg7 harg7 arg8 harg8 arg9 harg9 arg10 harg10 x0 x1 x2 x3 x4 x5 (ix3 (0 : Fin 1) r k)
      = Ideal.div (x1 (ix3 (0 : Fin 1) r k) - x0 (ix3 (0 : Fin 1) r k))
          (max (Ideal.sqrt (∑ j : Fin 3, (x1 (ix3 (0 : Fin 1) r j) - x0 (ix3 (0 : Fin 1) r j)) * (x1 (ix3 (0 : Fin 1) r j) - x0 (ix3 (0 : Fin 1) r j))))
            (Ideal.ofBits .f32 0x358637BD#32)) :=
  (congrFun (normal_piece c i arg2 harg2 arg3 harg3 arg4 harg4 arg5 harg5 arg6 harg6 arg7 harg7 arg8 harg8 arg9 harg9 arg10 harg10 x0 x1 x2 x3 x4 x5) (ix3 (0 : Fin 1) r k)).trans (normal_pay x0 x1 r k)

/-- ONE POINT'S COORDINATE-FEATURE BLOCK at row `r`, column `k`: weights 1 and 2, then the signed distance
    (`x2` the weights' block, `x3` the signed distances'). -/
theorem coordsFeat_point (r : Fin 1024) (k : Fin 3) :
    out0_A_7 (F := Ideal) c i arg2 harg2 arg3 harg3 arg4 harg4 arg5 harg5 arg6 harg6 arg7 harg7 arg8 harg8 arg9 harg9 arg10 harg10 x0 x1 x2 x3 x4 x5 (ix3 (0 : Fin 1) r k)
      = if h : k.val < 2 then x2 (ix3 (0 : Fin 1) r (⟨k.val + 1, by omega⟩ : Fin 3)) else x3 (ix3 (0 : Fin 1) r (0 : Fin 1)) :=
  (congrFun (coords_piece c i arg2 harg2 arg3 harg3 arg4 harg4 arg5 harg5 arg6 harg6 arg7 harg7 arg8 harg8 arg9 harg9 arg10 harg10 x0 x1 x2 x3 x4 x5) (ix3 (0 : Fin 1) r k)).trans (coords_pay x2 x3 r k)

end Cert.FaceFeat.Point

end
-- ==== Proof.OneHot.lean ====
/-
  The algebra behind the vertex-feature output. A point's three weights are spread over the vertex axis as a row that holds,
  at vertex u, the sum of those weights whose face corner is u; the row is cut into three stretches of 2304 vertices, each
  stretch is multiplied into the table's matching rows, and the three products are added onto zero one after the other. Over
  the reals the product of that row with the table distributes over the three corners, and each corner's indicator picks exactly
  one vertex out of the 6912: the result is the weighted sum of the three corners' table rows. Distributing a table entry over
  a sum of weights is a law of the reals, not of the extended reals, so the statement is about real tables and real weights,
  read in the extended reals.
-/
import Mathlib.Data.EReal.Basic
import Mathlib.Algebra.BigOperators.Group.Finset.Basic
import Mathlib.Algebra.BigOperators.Ring.Finset
import Mathlib.Algebra.BigOperators.Fin

noncomputable section

open scoped BigOperators

namespace Cert.FaceFeat

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A weight kept where a condition holds and zero elsewhere, read in the extended reals. -/
theorem coe_ite_zero (p : Prop) [Decidable p] (a : ℝ) : ((if p then a else 0 : ℝ) : EReal) = if p then (a : EReal) else 0 := by
  split_ifs <;> simp

/-- Among the 3 × 2304 positions (stretch k, offset v) exactly one is vertex `u < 6912`: the indicator of
    `u = 2304·k + v` against any function of the position sums to the function at `u`. -/
theorem sum_indicator_position (u : ℕ) (hu : u < 6912) (f : ℕ → ℝ) :
    ∑ k : Fin 3, ∑ v : Fin 2304, (if u = 2304 * k.val + v.val then f (2304 * k.val + v.val) else 0) = f u := by
  rw [Finset.sum_eq_single (⟨u / 2304, by omega⟩ : Fin 3)]
  · rw [Finset.sum_eq_single (⟨u % 2304, Nat.mod_lt _ (by norm_num)⟩ : Fin 2304)]
    · have e : u = 2304 * (u / 2304) + u % 2304 := (Nat.div_add_mod u 2304).symm
      show (if u = 2304 * (u / 2304) + u % 2304 then f (2304 * (u / 2304) + u % 2304) else 0) = f u
      rw [if_pos e, ← e]
    · intro v _ hv
      rw [if_neg]
      intro h; apply hv; apply Fin.ext
      show v.val = u % 2304
      have := v.isLt
      simp only at h
      omega
    · intro h; exact absurd (Finset.mem_univ _) h
  · intro k _ hk
    apply Finset.sum_eq_zero
    intro v _
    rw [if_neg]
    intro h; apply hk; apply Fin.ext
    show k.val = u / 2304
    have := v.isLt
    omega
  · intro h; exact absurd (Finset.mem_univ _) h

/-- One stretch's product over the reals: the row's entry at offset v of stretch k against the table's row `2304·k + v`. -/
def stretchR (T : ℕ → ℝ) (a : Fin 3 → ℝ) (h : Fin 3 → ℕ) (k : ℕ) : ℝ :=
  ∑ v : Fin 2304, (((if h 0 = 2304 * k + v.val then a 0 else 0) + (if h 1 = 2304 * k + v.val then a 1 else 0))
      + (if h 2 = 2304 * k + v.val then a 2 else 0)) * T (2304 * k + v.val)

/-- OVER THE REALS: the three stretches' products added onto zero are the three corners' table rows, weighted. -/
theorem stretches_real (T : ℕ → ℝ) (a : Fin 3 → ℝ) (h : Fin 3 → ℕ) (hh : ∀ c, h c < 6912) :
    ((0 + stretchR T a h 0) + stretchR T a h 1) + stretchR T a h 2 = ∑ c : Fin 3, T (h c) * a c := by
  have corner : ∀ c : Fin 3, ∑ k : Fin 3, ∑ v : Fin 2304,
      (if h c = 2304 * k.val + v.val then a c * T (2304 * k.val + v.val) else 0) = T (h c) * a c := fun c => by
    rw [sum_indicator_position (h c) (hh c) (fun x => a c * T x)]; ring
  have split : ∀ k : ℕ, stretchR T a h k = ∑ c : Fin 3, ∑ v : Fin 2304,
      (if h c = 2304 * k + v.val then a c * T (2304 * k + v.val) else 0) := fun k => by
    unfold stretchR
    rw [Fin.sum_univ_three, ← Finset.sum_add_distrib, ← Finset.sum_add_distrib]
    refine Finset.sum_congr rfl fun v _ => ?_
    rw [add_mul, add_mul, ite_mul, ite_mul, ite_mul, zero_mul]
  rw [zero_add, add_assoc, split 0, split 1, split 2, Fin.sum_univ_three, Fin.sum_univ_three, Fin.sum_univ_three, Fin.sum_univ_three,
    ← corner 0, ← corner 1, ← corner 2, Fin.sum_univ_three, Fin.sum_univ_three, Fin.sum_univ_three]
  simp only [Fin.val_zero, Fin.val_one, Fin.val_two, Nat.mul_zero, Nat.mul_one]
  ring

/-- One stretch's product in the extended reals, every entry a real read there. -/
def stretchE (T : ℕ → ℝ) (a : Fin 3 → ℝ) (h : Fin 3 → ℕ) (k : ℕ) : EReal :=
  ∑ v : Fin 2304, (((if h 0 = 2304 * k + v.val then (a 0 : EReal) else 0) + (if h 1 = 2304 * k + v.val then (a 1 : EReal) else 0))
      + (if h 2 = 2304 * k + v.val then (a 2 : EReal) else 0)) * (T (2304 * k + v.val) : EReal)

theorem stretchE_eq (T : ℕ → ℝ) (a : Fin 3 → ℝ) (h : Fin 3 → ℕ) (k : ℕ) : stretchE T a h k = (stretchR T a h k : EReal) := by
  unfold stretchE stretchR
  rw [coe_sum]
  refine Finset.sum_congr rfl fun v _ => ?_
  rw [EReal.coe_mul, EReal.coe_add, EReal.coe_add, coe_ite_zero, coe_ite_zero, coe_ite_zero]

/-- IN THE EXTENDED REALS, for real tables and weights: the three stretches' products added onto zero are the weighted
    sum of the three corners' table rows. -/
theorem stretches (T : ℕ → ℝ) (a : Fin 3 → ℝ) (h : Fin 3 → ℕ) (hh : ∀ c, h c < 6912) :
    (((0 : EReal) + stretchE T a h 0) + stretchE T a h 1) + stretchE T a h 2 = ∑ c : Fin 3, (T (h c) : EReal) * (a c : EReal) := by
  rw [stretchE_eq, stretchE_eq, stretchE_eq, ← EReal.coe_zero, ← EReal.coe_add, ← EReal.coe_add, ← EReal.coe_add,
    stretches_real T a h hh, coe_sum]
  refine Finset.sum_congr rfl fun c _ => ?_
  rw [EReal.coe_mul]

end Cert.FaceFeat

end
-- ==== Proof.PointFeat.lean ====
/-
  What one grid point leaves in the vertex-feature block, entry by entry.

  A grid point handles 1024 points. Point r has three corner vertices h₀, h₁, h₂ (rows of the padded vertex table: 6912 rows of
  64 features) and three weights a₀, a₁, a₂. The body cuts the table's rows into three stretches of 2304. For stretch k it forms
  the 1024 × 2304 matrix whose entry (r, v) is the sum of those weights a_c whose corner is vertex 2304·k + v (each weight is
  kept where the word h_c − 2304·k equals the column number v, and replaced by zero elsewhere) and multiplies that matrix into
  rows 2304·k … 2304·k + 2303 of the table. The three products are added, one per trip of a counted loop, onto a zero block.

  Read at row r and feature d the block is therefore ((0 + S₀) + S₁) + S₂ with
      S_k = ∑_{v < 2304} ([h₀ = 2304k + v]·a₀ + [h₁ = 2304k + v]·a₁ + [h₂ = 2304k + v]·a₂) · table(2304k + v, d),
  and for real weights and a real table the imported algebra of the stretches turns that into ∑_c table(h_c, d) · a_c.

  In order: the block is the loop's result with a unit axis put in front; the loop's result is three trips applied to the zero
  block; a trip adds to the carried block the product of that trip's weight matrix with the 2304 table rows it reads; the product
  at an entry is a sum over the 2304 columns; an entry of the weight matrix is three selects on word comparisons; for corner words
  below 6912 the comparison of 32-bit words h − 2304·k = v holds exactly when h = 2304·k + v holds of the numbers. A change of
  float format is the identity on extended reals, and the zero word reads as the number 0.
-/
import proofs.«413851_j32942399160428_3_alg».proof.Proof.Gen.KernelIdeal.Frame
import proofs.«413851_j32942399160428_3_alg».proof.Proof.OneHot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.Tactic

set_option maxRecDepth 16384

noncomputable section

open scoped BigOperators

namespace Cert.FaceFeat.Point

open Cert.KernelIdeal Cert.KernelIdeal.Gen Idealize.ShloMosaic Idealize.ShloMosaic.TcCoe Idealize.SL.Sem Idealize.ShloMosaic.ValueIdx

variable (c : Dev nD) (i : grid0.Coords)
  (arg2 : Memref sig .tc .vmem S1x1024x3 .f32) (harg2 : arg2.IsWhole) (arg3 : Memref sig .tc .vmem S1x1024x3 .f32) (harg3 : arg3.IsWhole)
  (arg4 : Memref sig .tc .vmem S1x1024x3 .f32) (harg4 : arg4.IsWhole) (arg5 : Memref sig .tc .vmem S1x1024x1 .f32) (harg5 : arg5.IsWhole)
  (arg6 : Memref sig .tc .vmem S1x1024x3 .i32) (harg6 : arg6.IsWhole) (arg7 : Memref sig .tc .vmem S1x6912x64 .bf16) (harg7 : arg7.IsWhole)
  (arg8 : Memref sig .tc .vmem S1x1024x64 .f32) (harg8 : arg8.IsWhole) (arg9 : Memref sig .tc .vmem S1x1024x3 .f32) (harg9 : arg9.IsWhole)
  (arg10 : Memref sig .tc .vmem S1x1024x3 .f32) (harg10 : arg10.IsWhole)

namespace Feat

/-! ## The block is three trips applied to the zero block (at any float family) -/

section Generic
variable {F : FTy → Type} [FloatOps F]
variable (x0 x1 x2 : Vec F S1x1024x3 .f32) (x3 : Vec F S1x1024x1 .f32) (x4 : Vec F S1x1024x3 .i32) (x5 : Vec F S1x6912x64 .bf16)

/-- Three zero offsets. -/
theorem hz3 : (![0, 0, 0] : Fin 3 → Nat) = fun _ => 0 := funext fun a => by fin_cases a <;> rfl

/-- The loop runs from 0 to 0 + 3 by steps of 1: three trips. -/
theorem trips3 : k0_t1_loop.trips = 3 := by decide

/-- The vertex-feature block holds one store that covers it: the loop's result after its three trips, from the zero block, with a
    unit axis in front. The loop reads the corner words `x4`, the weights `x2` and the table block `x5` whole. -/
theorem out_eq :
    out0_A_6 (F := F) c i arg2 harg2 arg3 harg3 arg4 harg4 arg5 harg5 arg6 harg6 arg7 harg7 arg8 harg8 arg9 harg9 arg10 harg10 x0 x1 x2 x3 x4 x5
      = k0_pay5 (st_k0_t1 (F := F) Variants.none c none i arg2 harg2 arg3 harg3 arg4 harg4 arg5 harg5 arg6 harg6 arg7 harg7 arg8 harg8 arg9 harg9 arg10 harg10 x4 x2 (harg7.unread x5) (k0_pay3 (F := F)) 3) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  simp only [View.readAt_eq_ld, harg6.read_unread, harg4.read_unread, View.ld_unit_zero (S := S1x1024x3) hz3]
  rfl

/-- One trip yields the trip's arithmetic applied to the carried block and to the 2304 table rows read from the trip's offset. -/
theorem trip_eq (𝒱 : Variants) (bd : Option 𝒱.V) (v0 : Vec F S1x1024x3 .i32) (v2 : Vec F S1x1024x3 .f32) (X : BufTy.Contents (Elt F) arg7.view.ty)
    (k : Fin k0_t1_loop.trips) (acc : FVec F S1024x64 .f32) :
    tripR_k0_t1 (F := F) 𝒱 c bd i arg2 harg2 arg3 harg3 arg4 harg4 arg5 harg5 arg6 harg6 arg7 harg7 arg8 harg8 arg9 harg9 arg10 harg10 v0 v2 X k acc
      = k0_pay4 v0 v2 k acc (arg7.view.readAt (Elt F) (Rect.unit (s := S1x6912x64) (k0_off1 k) S1x2304x64.size (k0_off1_inb k)).toLoadRect X) := by
  unfold tripR_k0_t1 trip_k0_t1
  rfl

/-- Stretch `k` of the table block: its 2304 rows from the trip's offset. -/
def chunk (k : Fin k0_t1_loop.trips) : Vec F S1x2304x64 .bf16 :=
  View.ld x5 (Rect.unit (s := S1x6912x64) (k0_off1 k) S1x2304x64.size (k0_off1_inb k))

/-- With the table buffer holding `x5`, trip `k` reads stretch `k` of `x5`. -/
theorem trip_chunk (𝒱 : Variants) (bd : Option 𝒱.V) (v0 : Vec F S1x1024x3 .i32) (v2 : Vec F S1x1024x3 .f32)
    (k : Fin k0_t1_loop.trips) (acc : FVec F S1024x64 .f32) :
    tripR_k0_t1 (F := F) 𝒱 c bd i arg2 harg2 arg3 harg3 arg4 harg4 arg5 harg5 arg6 harg6 arg7 harg7 arg8 harg8 arg9 harg9 arg10 harg10 v0 v2 (harg7.unread x5) k acc
      = k0_pay4 v0 v2 k acc (chunk x5 k) := by
  rw [trip_eq, View.readAt_eq_ld, harg7.read_unread]
  rfl

/-- Row `v` of stretch `k` is row `2304·k + v` of the table block. -/
theorem chunk_apply (k : Fin k0_t1_loop.trips) (v : Fin 2304) (d : Fin 64) (u : Fin 6912) (hu : u.val = 2304 * k.val + v.val) :
    chunk x5 k (ix3 (0 : Fin 1) v d) = x5 (ix3 (0 : Fin 1) u d) := by
  unfold chunk
  show x5 _ = x5 _
  refine congrArg x5 (funext fun a => Fin.ext ?_)
  show k0_off1 k a + 1 * ((ix3 (0 : Fin 1) v d) a).val = ((ix3 (0 : Fin 1) u d) a).val
  rw [k0_off1_eq k]
  match a with
  | ⟨0, _⟩ => rfl
  | ⟨1, _⟩ => show 2304 * k.val + 1 * v.val = u.val; omega
  | ⟨2, _⟩ => show 0 + 1 * d.val = d.val; omega

/-- The carried block before trip 3 is trip 2 of trip 1 of trip 0 of the initial block. -/
theorem st3 (𝒱 : Variants) (bd : Option 𝒱.V) (v0 : Vec F S1x1024x3 .i32) (v2 : Vec F S1x1024x3 .f32) (X : BufTy.Contents (Elt F) arg7.view.ty)
    (init : FVec F S1024x64 .f32) (h0 : 0 < k0_t1_loop.trips) (h1 : 1 < k0_t1_loop.trips) (h2 : 2 < k0_t1_loop.trips) :
    st_k0_t1 (F := F) 𝒱 c bd i arg2 harg2 arg3 harg3 arg4 harg4 arg5 harg5 arg6 harg6 arg7 harg7 arg8 harg8 arg9 harg9 arg10 harg10 v0 v2 X init 3
      = tripR_k0_t1 (F := F) 𝒱 c bd i arg2 harg2 arg3 harg3 arg4 harg4 arg5 harg5 arg6 harg6 arg7 harg7 arg8 harg8 arg9 harg9 arg10 harg10 v0 v2 X ⟨2, h2⟩
          (tripR_k0_t1 (F := F) 𝒱 c bd i arg2 harg2 arg3 harg3 arg4 harg4 arg5 harg5 arg6 harg6 arg7 harg7 arg8 harg8 arg9 harg9 arg10 harg10 v0 v2 X ⟨1, h1⟩
            (tripR_k0_t1 (F := F) 𝒱 c bd i arg2 harg2 arg3 harg3 arg4 harg4 arg5 harg5 arg6 harg6 arg7 harg7 arg8 harg8 arg9 harg9 arg10 harg10 v0 v2 X ⟨0, h0⟩ init)) := by
  refine (st_k0_t1_succ (F := F) 𝒱 c bd i arg2 harg2 arg3 harg3 arg4 harg4 arg5 harg5 arg6 harg6 arg7 harg7 arg8 harg8 arg9 harg9 arg10 harg10 v0 v2 X init ⟨2, h2⟩).trans ?_
  refine congrArg (tripR_k0_t1 (F := F) 𝒱 c bd i arg2 harg2 arg3 harg3 arg4 harg4 arg5 harg5 arg6 harg6 arg7 harg7 arg8 harg8 arg9 harg9 arg10 harg10 v0 v2 X ⟨2, h2⟩) ?_
  refine (st_k0_t1_succ (F := F) 𝒱 c bd i arg2 harg2 arg3 harg3 arg4 harg4 arg5 harg5 arg6 harg6 arg7 harg7 arg8 harg8 arg9 harg9 arg10 harg10 v0 v2 X init ⟨1, h1⟩).trans ?_
  refine congrArg (tripR_k0_t1 (F := F) 𝒱 c bd i arg2 harg2 arg3 harg3 arg4 harg4 arg5 harg5 arg6 harg6 arg7 harg7 arg8 harg8 arg9 harg9 arg10 harg10 v0 v2 X ⟨1, h1⟩) ?_
  exact st_k0_t1_succ (F := F) 𝒱 c bd i arg2 harg2 arg3 harg3 arg4 harg4 arg5 harg5 arg6 harg6 arg7 harg7 arg8 harg8 arg9 harg9 arg10 harg10 v0 v2 X init ⟨0, h0⟩

end Generic

/-! ## One trip at an entry, over the extended reals -/

section AtIdeal

/-- The product of a 1024 × 2304 matrix with a 2304 × 64 matrix onto zero, at entry (r, d): the sum over the 2304 columns. -/
theorem mm_apply (L : FVec Ideal S1024x2304 .bf16) (R : FVec Ideal S2304x64 .bf16) (r : Fin 1024) (d : Fin 64) :
    matmul (F := Ideal) dot_S1024x2304_S2304x64_S1024x64_1_0_0_1_n_n none L R (constant (F := Ideal) S1024x64 .f32 0x00000000#32) (ix2 r d)
      = ∑ v : Fin 2304, L (ix2 r v) * R (ix2 v d) := by
  show FloatOps.matmul dot_S1024x2304_S2304x64_S1024x64_1_0_0_1_n_n none L R (constant (F := Ideal) S1024x64 .f32 0x00000000#32) (ix2 r d) = _
  rw [Ideal.matmul_constant_zero_apply, ← Equiv.sum_comp (contrEquiv1 dot_S1024x2304_S2304x64_S1024x64_1_0_0_1_n_n 2304 rfl rfl).symm]
  refine Finset.sum_congr rfl fun v _ => ?_
  have c2 := contrEquiv1_symm_val dot_S1024x2304_S2304x64_S1024x64_1_0_0_1_n_n 2304 rfl rfl v
  have l2 : dot_S1024x2304_S2304x64_S1024x64_1_0_0_1_n_n.lhsIdx (ix2 r d) ((contrEquiv1 dot_S1024x2304_S2304x64_S1024x64_1_0_0_1_n_n 2304 rfl rfl).symm v) = ix2 r v := by
    funext ax; apply Fin.ext
    match ax with
    | ⟨0, _⟩ => simp [DotDims.lhsIdx, dot_S1024x2304_S2304x64_S1024x64_1_0_0_1_n_n]; rfl
    | ⟨1, _⟩ => simp [DotDims.lhsIdx, dot_S1024x2304_S2304x64_S1024x64_1_0_0_1_n_n]; exact c2
  have r2 : dot_S1024x2304_S2304x64_S1024x64_1_0_0_1_n_n.rhsIdx (ix2 r d) ((contrEquiv1 dot_S1024x2304_S2304x64_S1024x64_1_0_0_1_n_n 2304 rfl rfl).symm v) = ix2 v d := by
    funext ax; apply Fin.ext
    match ax with
    | ⟨0, _⟩ => simp [DotDims.rhsIdx, dot_S1024x2304_S2304x64_S1024x64_1_0_0_1_n_n]; exact c2
    | ⟨1, _⟩ => simp [DotDims.rhsIdx, dot_S1024x2304_S2304x64_S1024x64_1_0_0_1_n_n]; rfl
  rw [l2, r2]

variable (x4 : IVec S1x1024x3 32) (x2 : FVec Ideal S1x1024x3 .f32)

/-- Column `o` of the corner words, less a word `w`, spread along the 2304 columns: at (r, v) it is point r's corner-`o` word less `w`. -/
theorem wordcol_apply (w : BitVec 32) (o : Nat) (hs : S1024x3.Slices ![0, o] S1024x1) (cc : Fin 3) (ho : cc.val = o)
    (r : Fin 1024) (v : Fin 2304) :
    broadcastTo S1024x2304 (subi (extractStridedSlice S1024x1 ![0, o] (shapeCast S1024x3 x4 shapeCasts_S1x1024x3_S1024x3) hs) (broadcast S1024x1 w))
        broadcasts_S1024x1_S1024x2304 (ix2 r v)
      = x4 (ix3 (0 : Fin 1) r cc) - w := by
  refine (broadcastTo_apply _ _ (ix2 r v) (ix2 r (0 : Fin 1)) fun a => ?_).trans ?_
  · match a with
    | ⟨0, _⟩ => rfl
    | ⟨1, _⟩ => rfl
  · show extractStridedSlice S1024x1 ![0, o] (shapeCast S1024x3 x4 shapeCasts_S1x1024x3_S1024x3) hs (ix2 r (0 : Fin 1)) - w = _
    rw [slice2_axis1_apply o _ hs r (0 : Fin 1) cc (by omega), shapeCast_1ab_ab_apply]

/-- Column `o` of the weights spread along the 2304 columns: at (r, v) it is point r's weight `o`. -/
theorem wcol_apply (o : Nat) (hs : S1024x3.Slices ![0, o] S1024x1) (cc : Fin 3) (ho : cc.val = o) (r : Fin 1024) (v : Fin 2304) :
    broadcastTo S1024x2304 (shapeCast S1024x1 (extractStridedSlice S1024x1 ![0, o] (k0_pay2 (F := Ideal) x2) hs) shapeCasts_S1024x1_S1024x1)
        broadcasts_S1024x1_S1024x2304 (ix2 r v)
      = x2 (ix3 (0 : Fin 1) r cc) := by
  refine (broadcastTo_apply _ _ (ix2 r v) (ix2 r (0 : Fin 1)) fun a => ?_).trans ?_
  · match a with
    | ⟨0, _⟩ => rfl
    | ⟨1, _⟩ => rfl
  · rw [shapeCast_self, slice2_axis1_apply o _ hs r (0 : Fin 1) cc (by omega)]
    unfold k0_pay2
    exact shapeCast_1ab_ab_apply x2 _ r cc

/-- Corner `cc`'s share of entry (r, v) of the weight matrix built against the word `w`: point r's weight `cc` where its corner
    word less `w` is the column number `v`, the zero word's value elsewhere. -/
def hot (w : BitVec 32) (r : Fin 1024) (cc : Fin 3) (v : Fin 2304) : EReal :=
  Scalar.select (IntOp.cmpi .eq (x4 (ix3 (0 : Fin 1) r cc) - w) (BitVec.ofNat 32 v.val)) (x2 (ix3 (0 : Fin 1) r cc)) (Ideal.ofBits .f32 0x00000000#32)

/-- The select of the spread weight column on the comparison of the spread word column with the column numbers, at (r, v). -/
theorem hot_apply (w : BitVec 32) (o : Nat) (hs : S1024x3.Slices ![0, o] S1024x1) (cc : Fin 3) (ho : cc.val = o) (r : Fin 1024) (v : Fin 2304) :
    select (cmpi .eq (broadcastTo S1024x2304 (subi (extractStridedSlice S1024x1 ![0, o] (shapeCast S1024x3 x4 shapeCasts_S1x1024x3_S1024x3) hs) (broadcast S1024x1 w))
          broadcasts_S1024x1_S1024x2304) (iota .tc S1024x2304 32 [1] iota_S1024x2304_d1_w32))
      (broadcastTo S1024x2304 (shapeCast S1024x1 (extractStridedSlice S1024x1 ![0, o] (k0_pay2 (F := Ideal) x2) hs) shapeCasts_S1024x1_S1024x1)
          broadcasts_S1024x1_S1024x2304)
      (broadcast S1024x2304 (Scalar.ofBits (F := Ideal) .f32 0x00000000#32)) (ix2 r v) = hot x4 x2 w r cc v := by
  unfold hot
  refine (select_apply _ _ _ _).trans ?_
  refine congr (congrArg₂ Scalar.select ?_ ?_) rfl
  · show IntOp.cmpi .eq (broadcastTo S1024x2304 _ broadcasts_S1024x1_S1024x2304 (ix2 r v)) (iota .tc S1024x2304 32 [1] iota_S1024x2304_d1_w32 (ix2 r v)) = _
    rw [wordcol_apply x4 w o hs cc ho r v, iota_single_apply]
  · exact wcol_apply x2 o hs cc ho r v

/-- ONE TRIP AT AN ENTRY: the carried block's entry plus, over the 2304 columns, the three corners' shares times the read rows' entries. -/
theorem pay4_apply (k : Fin k0_t1_loop.trips) (acc : FVec Ideal S1024x64 .f32) (v37 : FVec Ideal S1x2304x64 .bf16) (r : Fin 1024) (d : Fin 64) :
    k0_pay4 (F := Ideal) x4 x2 k acc v37 (ix2 r d)
      = acc (ix2 r d) + ∑ v : Fin 2304,
          ((hot x4 x2 (Scalar.muli (Scf.iv 0#32 1#32 k) 2304#32) r 0 v + hot x4 x2 (Scalar.muli (Scf.iv 0#32 1#32 k) 2304#32) r 1 v)
            + hot x4 x2 (Scalar.muli (Scf.iv 0#32 1#32 k) 2304#32) r 2 v) * v37 (ix3 (0 : Fin 1) v d) := by
  unfold k0_pay4
  dsimp only
  refine (addf_apply _ _ _).trans ?_
  refine congrArg (fun t => acc (ix2 r d) + t) ?_
  refine (mm_apply _ _ r d).trans ?_
  refine Finset.sum_congr rfl fun v _ => ?_
  refine congrArg₂ (· * ·) ?_ ?_
  · refine (truncf_apply (φ := .f32) (ψ := .bf16) _ bitsLt_bf16_f32 (ix2 r v)).trans ?_
    refine (addf_apply _ _ _).trans ?_
    refine congrArg₂ (· + ·) ((addf_apply _ _ _).trans (congrArg₂ (· + ·) ?_ ?_)) ?_
    · exact hot_apply x4 x2 _ 0 slices_S1024x3_o0_0_S1024x1 0 rfl r v
    · exact hot_apply x4 x2 _ 1 slices_S1024x3_o0_1_S1024x1 1 rfl r v
    · exact hot_apply x4 x2 _ 2 slices_S1024x3_o0_2_S1024x1 2 rfl r v
  · exact shapeCast_1ab_ab_apply v37 _ v d

end AtIdeal

/-! ## The word comparison is the comparison of the numbers -/

section Words

/-- Trip `n`'s word, the trip number times 2304, is the word of the number 2304·n. -/
theorem tripWord (n : ℕ) (hn : n < 3) : Scalar.muli (Scf.iv 0#32 1#32 n) 2304#32 = BitVec.ofNat 32 (2304 * n) := by
  interval_cases n <;> rfl

/-- For a word `hf` below 6912, a trip below 3 and a column below 2304: `hf − 2304·n` is the word of `v` exactly when
    `hf = 2304·n + v` as numbers (nothing wraps: a difference that went below zero would be a word far above 2304). -/
theorem word_eq_iff (hf : BitVec 32) (hhf : hf.toNat < 6912) (n : ℕ) (hn : n < 3) (v : ℕ) (hv : v < 2304) :
    IntOp.cmpi .eq (hf - BitVec.ofNat 32 (2304 * n)) (BitVec.ofNat 32 v) = 1#1 ↔ hf.toNat = 2304 * n + v := by
  rw [StableHlo.Predicate.cmpi_eq_iff]
  constructor
  · intro h
    have e := congrArg BitVec.toNat h
    rw [BitVec.toNat_sub, BitVec.toNat_ofNat, BitVec.toNat_ofNat] at e
    omega
  · intro h
    apply BitVec.eq_of_toNat_eq
    rw [BitVec.toNat_sub, BitVec.toNat_ofNat, BitVec.toNat_ofNat]
    omega

end Words

/-! ## One trip adds one stretch's product -/

section Value

variable (x4 : IVec S1x1024x3 32) (x2 : FVec Ideal S1x1024x3 .f32) (x5 : FVec Ideal S1x6912x64 .bf16)

/-- A corner's share at trip `n`, for a real weight `a` and a corner word below 6912: `a` where the corner is vertex
    `2304·n + v`, zero elsewhere. -/
theorem hot_eq (r : Fin 1024) (cc : Fin 3) (v : Fin 2304) (n : ℕ) (hn : n < 3) (hh : (x4 (ix3 (0 : Fin 1) r cc)).toNat < 6912)
    (a : ℝ) (ha : x2 (ix3 (0 : Fin 1) r cc) = (a : EReal)) :
    hot x4 x2 (Scalar.muli (Scf.iv 0#32 1#32 n) 2304#32) r cc v
      = if (x4 (ix3 (0 : Fin 1) r cc)).toNat = 2304 * n + v.val then (a : EReal) else 0 := by
  unfold hot
  rw [tripWord n hn, ha]
  by_cases h : (x4 (ix3 (0 : Fin 1) r cc)).toNat = 2304 * n + v.val
  · rw [if_pos h, (word_eq_iff _ hh n hn v.val v.isLt).mpr h, select_one]
  · rw [if_neg h, eq_zero_of_ne_one (mt (word_eq_iff _ hh n hn v.val v.isLt).mp h), select_zero, Ideal.ofBits_zero_f32]

/-- TRIP `k` AT ENTRY (r, d), for real weights `a`, a real table column `T` and corner words below 6912: the carried entry plus
    stretch `k`'s product. -/
theorem trip_val (k : Fin k0_t1_loop.trips) (acc : FVec Ideal S1024x64 .f32) (r : Fin 1024) (d : Fin 64)
    (a : Fin 3 → ℝ) (ha : ∀ cc, x2 (ix3 (0 : Fin 1) r cc) = (a cc : EReal))
    (T : ℕ → ℝ) (hT : ∀ u : Fin 6912, x5 (ix3 (0 : Fin 1) u d) = (T u.val : EReal))
    (hx4 : ∀ cc, (x4 (ix3 (0 : Fin 1) r cc)).toNat < 6912) :
    k0_pay4 (F := Ideal) x4 x2 k acc (chunk (F := Ideal) x5 k) (ix2 r d)
      = acc (ix2 r d) + stretchE T a (fun cc => (x4 (ix3 (0 : Fin 1) r cc)).toNat) k.val := by
  have hk : k.val < 3 := lt_of_lt_of_eq k.isLt trips3
  refine (pay4_apply x4 x2 k acc (chunk (F := Ideal) x5 k) r d).trans ?_
  unfold stretchE
  refine congrArg (fun t => acc (ix2 r d) + t) (Finset.sum_congr rfl fun v _ => ?_)
  rw [hot_eq x4 x2 r 0 v k.val hk (hx4 0) (a 0) (ha 0), hot_eq x4 x2 r 1 v k.val hk (hx4 1) (a 1) (ha 1),
    hot_eq x4 x2 r 2 v k.val hk (hx4 2) (a 2) (ha 2),
    chunk_apply (F := Ideal) x5 k v d ⟨2304 * k.val + v.val, by have := v.isLt; omega⟩ rfl, hT]

/-- The reals behind feature `d` of the table block, by row number (zero past the last row). -/
def tableReal (T' : S1x6912x64.Idx → ℝ) (d : Fin 64) (n : ℕ) : ℝ :=
  if hn : n < 6912 then T' (ix3 (0 : Fin 1) (⟨n, hn⟩ : Fin 6912) d) else 0

end Value

end Feat

open Feat

variable (x0 x1 x2 : Vec Ideal S1x1024x3 .f32) (x3 : Vec Ideal S1x1024x1 .f32) (x4 : Vec Ideal S1x1024x3 .i32) (x5 : Vec Ideal S1x6912x64 .bf16)

/-- ONE POINT'S VERTEX-FEATURE BLOCK at row `r`, feature `d`: for real weights (`x2`) and a real table block (`x5`), and
    corner vertices (`x4`) that are rows of the padded table, the weighted sum of the three corners' table rows. -/
theorem feat_point (hx2 : ∀ y, ∃ q : ℝ, x2 y = (q : EReal)) (hx5 : ∀ y, ∃ q : ℝ, x5 y = (q : EReal)) (hx4 : ∀ y, (x4 y).toNat < 6912)
    (r : Fin 1024) (d : Fin 64) :
    out0_A_6 (F := Ideal) c i arg2 harg2 arg3 harg3 arg4 harg4 arg5 harg5 arg6 harg6 arg7 harg7 arg8 harg8 arg9 harg9 arg10 harg10 x0 x1 x2 x3 x4 x5 (ix3 (0 : Fin 1) r d)
      = ∑ k : Fin 3, x5 (ix3 (0 : Fin 1) (⟨(x4 (ix3 (0 : Fin 1) r k)).toNat, hx4 _⟩ : Fin 6912) d) * x2 (ix3 (0 : Fin 1) r k) := by
  have h0 : 0 < k0_t1_loop.trips := by rw [trips3]; decide
  have h1 : 1 < k0_t1_loop.trips := by rw [trips3]; decide
  have h2 : 2 < k0_t1_loop.trips := by rw [trips3]; decide
  -- the reals behind the point's three weights and behind the table block
  choose a ha using fun cc : Fin 3 => hx2 (ix3 (0 : Fin 1) r cc)
  choose T' hT' using hx5
  have hT : ∀ u : Fin 6912, x5 (ix3 (0 : Fin 1) u d) = (tableReal T' d u.val : EReal) := fun u => by
    rw [hT']; unfold tableReal; rw [dif_pos u.isLt]
  have hh : ∀ cc : Fin 3, (x4 (ix3 (0 : Fin 1) r cc)).toNat < 6912 := fun cc => hx4 _
  -- the block is the loop's result under a unit axis; the loop's result is three trips from the zero block
  refine (congrFun (out_eq (F := Ideal) c i arg2 harg2 arg3 harg3 arg4 harg4 arg5 harg5 arg6 harg6 arg7 harg7 arg8 harg8 arg9 harg9 arg10 harg10 x0 x1 x2 x3 x4 x5) (ix3 (0 : Fin 1) r d)).trans ?_
  unfold k0_pay5
  refine (shapeCast_ab_1ab_apply _ _ (0 : Fin 1) r d).trans ?_
  rw [st3 (F := Ideal) c i arg2 harg2 arg3 harg3 arg4 harg4 arg5 harg5 arg6 harg6 arg7 harg7 arg8 harg8 arg9 harg9 arg10 harg10 Variants.none none x4 x2 (harg7.unread x5) (k0_pay3 (F := Ideal)) h0 h1 h2]
  rw [trip_chunk, trip_chunk, trip_chunk]
  -- each trip adds its stretch's product
  rw [trip_val x4 x2 x5 ⟨2, h2⟩ _ r d a ha (tableReal T' d) hT hh, trip_val x4 x2 x5 ⟨1, h1⟩ _ r d a ha (tableReal T' d) hT hh,
    trip_val x4 x2 x5 ⟨0, h0⟩ _ r d a ha (tableReal T' d) hT hh]
  -- the zero block's entry is 0, and the three stretches' products onto 0 are the three corners' table rows, weighted
  show ((Ideal.ofBits .f32 0x00000000#32 + _) + _) + _ = _
  rw [Ideal.ofBits_zero_f32, stretches _ a _ hh]
  refine Finset.sum_congr rfl fun cc _ => ?_
  rw [ha cc]
  exact congrArg (· * (a cc : EReal)) (hT ⟨_, hh cc⟩).symm

end Cert.FaceFeat.Point

end
-- ==== Proof.PreDecode.lean ====
/-
  The precondition, opened once.

  The precondition is a single bit: the conjunction of eleven tests, each of the form "every entry of an array passes".
  Five of them, one per real-valued argument (the coordinates, the weights, the signed distances, the hit positions, the
  vertex tables), say |x| < +∞ at every entry, with |x| = max x (-x) and +∞ the value of the word 0x7F800000. Six of them,
  two per index argument, say 0 ≤ x and x < n at every entry, both comparisons on the signed value of the word:
  n = 256 for the subject words, 6890 for the vertex words of the face table, 13776 for the face ids.
  A conjunction is 1 only where both sides are 1, and a conjunction over all entries of an array of bits is 1 only where
  every entry is 1; so where the whole bit is 1, each of the eleven arrays of bits is 1 at every index.

  Two facts about a single entry turn those bits into the five facts the specification asks for:
  * an extended real x with max x (-x) < ⊤ is a real number: at x = ⊤ the maximum is ⊤, at x = ⊥ the negation is ⊤, and ⊤
    is not below itself;
  * a 32-bit word that is at least 0 and below n as a signed number, with n < 2³¹, is below n as an unsigned number: the
    lower bound rules out a set top bit, and a word with a clear top bit has the same value read either way.

  Of the eleven tests eight are used: the two on the weights and the vertex tables, and the six on the index words. The
  tests on the coordinates, the signed distances and the hit positions are part of the bit, but nothing after this needs them.
-/
import proofs.«413851_j32942399160428_3_alg».proof.Pre_finite_inputs
import proofs.«413851_j32942399160428_3_alg».proof.Proof.Spec
import Idealize.ShloMosaic.Lib.ReduceAll
import Idealize.ShloMosaic.Lib.StableHlo.Predicate
import Idealize.ShloMosaic.Lib.ValueIdx

set_option maxRecDepth 16384

noncomputable section

open scoped BigOperators

namespace Cert.FaceFeat.Pre

open Idealize.ShloMosaic Idealize.ShloMosaic.ValueIdx Cert.Pre_finite_inputs

/-- The scalar shape has exactly one index. -/
instance subsingleton_scalar_idx : Subsingleton S_.Idx := ⟨fun a b => funext fun d => d.elim0⟩

/-- The binary word of +∞ is the top extended real. -/
theorem inf_word_eq_top : Ideal.ofBits .f32 0x7F800000#32 = (⊤ : EReal) := by
  simp [Ideal.ofBits, Ideal.ieee]

/-- An extended real whose absolute value, max x (-x), is strictly below +∞ is a real number: at ⊤ the maximum is ⊤, at ⊥ the
    negation is ⊤, and ⊤ is not below itself. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_word_eq_top] at h
  unfold Ideal.cmp at h
  rw [StableHlo.Predicate.ofBool_eq_one_iff, decide_eq_true_eq, max_lt_iff] at h
  induction x using EReal.rec with
  | bot => exact absurd h.2 (by simp)
  | coe r => exact ⟨r, rfl⟩
  | top => exact absurd h.1 (by simp)

/-- A 32-bit word that is at least 0 and below n as a signed number, n below 2³¹, is below n as an unsigned number: a word with
    its top bit set reads negative, so the lower bound rules it out, and the others read the same both ways. -/
theorem toNat_lt_of_signed_range (x : BitVec 32) (n : ℕ) (hn : n < 2 ^ 31)
    (hlo : IntOp.cmpi .sge x 0#32 = 1#1) (hhi : IntOp.cmpi .slt x (BitVec.ofNat 32 n) = 1#1) : x.toNat < n := by
  unfold IntOp.cmpi at hlo hhi
  rw [StableHlo.Predicate.ofBool_eq_one_iff] at hlo hhi
  simp only [BitVec.sle, BitVec.slt, decide_eq_true_eq, StableHlo.Predicate.toInt_ofNat_small n hn] at hlo hhi
  have h0 : (0#32 : BitVec 32).toInt = 0 := by decide
  rw [h0] at hlo
  rw [BitVec.toInt_eq_toNat_cond] at hlo hhi
  have hx := x.isLt
  split at hlo <;> omega

/-- THE PRECONDITION DECODED: where the printed predicate is all ones, the weights and the vertex tables are real numbers
    and every index word is in range of its axis. -/
theorem inDomain_of_pre [Cert.Pre_finite_inputs.Facts]
    (a0 : FVec Ideal S4x131072x3 .f32) (a1 : IVec S4 32) (a2 : IVec S13776x3 32) (a3 : IVec S4x131072 32)
    (a4 : FVec Ideal S4x131072x3 .f32) (a5 : FVec Ideal S4x131072x1 .f32) (a6 : FVec Ideal S4x131072x3 .f32) (a7 : FVec Ideal S256x6890x64 .f32)
    (h : Cert.Pre_finite_inputs.fn (F := Ideal) a0 a1 a2 a3 a4 a5 a6 a7 = fun _ => 1#1) :
    Cert.FaceFeat.InDomain a1 a2 a3 a4 a7 := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨⟨-, hw⟩, -⟩, -⟩, hb⟩, hi0⟩, hi1⟩, hf0⟩, hf1⟩, hd0⟩, hd1⟩ := e
  refine ⟨fun i => ?_, fun i => ?_, fun i => ?_, fun i => ?_, fun i => ?_⟩
  · exact real_of_abs_lt_inf (a4 i) (Host.reduce_andi_all _ _ _ _ _ hw i)
  · exact real_of_abs_lt_inf (a7 i) (Host.reduce_andi_all _ _ _ _ _ hb i)
  · exact toNat_lt_of_signed_range (a1 i) 256 (by norm_num)
      (Host.reduce_andi_all _ _ _ _ _ hi0 i) (Host.reduce_andi_all _ _ _ _ _ hi1 i)
  · exact toNat_lt_of_signed_range (a2 i) 6890 (by norm_num)
      (Host.reduce_andi_all _ _ _ _ _ hf0 i) (Host.reduce_andi_all _ _ _ _ _ hf1 i)
  · exact toNat_lt_of_signed_range (a3 i) 13776 (by norm_num)
      (Host.reduce_andi_all _ _ _ _ _ hd0 i) (Host.reduce_andi_all _ _ _ _ _ hd1 i)

end Cert.FaceFeat.Pre

end
-- ==== Proof.RefFeat.lean ====
/-
  The reference's vertex features, read at one index.

  For point (b, s) and channel d the reference makes four reads and one sum:
  * the face row: the face table gathered at the point's face id, which is row fid[b, s] with its three corners;
  * the subject's table: the vertex tables gathered at the subject word, which is table idx[b] with all its rows and channels;
  * per point and corner a start index of two components: the batch number b (an iota along the batch axis) joined, along a
    new last axis, with the corner's vertex word;
  * the gather at those two components: row (b, vertex) of the per-batch tables, with all 64 channels;
  * that row times the point's weight for the corner (the weights broadcast along the channels), summed over the three corners
    onto an initial value whose word is the zero of the format.
  Before each gather the reference adds the axis extent to an index word that is negative as a signed number. A word in range of
  its axis is below 2³¹, so it is not negative and the step returns the word unchanged; the same holds for the batch number,
  which is below 4. A gather clamps each start component into its axis, and the specification's `rowOf` is that clamp, so every
  gather here reads the row `rowOf` names. Composing the four reads, the summand at corner c is the specification's: the
  subject's table at the hit vertex of corner c, at channel d, times the weight of corner c.
-/
import proofs.«413851_j32942399160428_3_alg».proof.Proof.Gen.ReferenceIdeal.Read
import proofs.«413851_j32942399160428_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

open scoped BigOperators

namespace Cert.FaceFeat.Ref

open Cert.ReferenceIdeal Idealize.ShloMosaic Idealize.ShloMosaic.ValueIdx

/-! ## Words -/

/-- A 32-bit word below 2³¹ is not negative as a signed number: the signed "less than zero" bit is 0. -/
private theorem slt_zero (x : BitVec 32) (h : x.toNat < 2 ^ 31) : IntOp.cmpi .slt x 0#32 = 0#1 :=
  eq_zero_of_ne_one fun h1 => by
    have h2 := (StableHlo.Predicate.slt_iff_toNat h (by decide)).mp h1
    simp at h2

/-- The word of a batch number names that row of the 4-row batch axis. -/
private theorem rowOf_ofNat (b : Fin 4) : rowOf 4 (by decide) (BitVec.ofNat 32 b.val) = b := by
  refine Fin.ext ?_
  have hb := b.isLt
  have ht : (BitVec.ofNat 32 b.val).toNat = b.val := by rw [BitVec.toNat_ofNat]; omega
  rw [rowOf_val_of_lt 4 (by decide) (by decide) _ (by omega), ht]

/-! ## The three gathers' dimension numbers: which operand element a result index reads

On each operand axis the operand index is the clamped start (on an axis the start index map names) plus the batching
coordinate (there are no batching axes here, so 0) plus the offset coordinate (0 on a collapsed axis). -/

/-- A gather reads its operand at the operand index of the result index. -/
private theorem gather_eq {α : Type} {s si t : Shape} {w : Nat} (d : GatherDims s si t) (x : s.Idx → α) (idx : IVec si w) (j : t.Idx) :
    Host.gather d x idx j = x (d.operandIdx j idx) := rfl
/-- The face-table gather. The table's row axis is collapsed and is the one axis the start index names; its corner axis is the
    result's offset axis. Result index (b, s, c) reads the row that the start word at (b, s, 0) names, clamped, at corner c. -/
private theorem opIdx12 (idx : IVec S4x131072x1 32) (b : Fin 4) (s : Fin 131072) (c : Fin 3) :
    gather_S13776x3_S4x131072x1_S4x131072x3_2_0_n_n_0_2_13.operandIdx (ix3 b s c) idx
      = ix2 (rowOf 13776 (by decide) (idx (ix3 b s (0 : Fin 1)))) c := by
  funext a
  refine Fin.ext ?_
  match a with
  | ⟨0, _⟩ =>
    show gather_S13776x3_S4x131072x1_S4x131072x3_2_0_n_n_0_2_13.start (ix3 b s c) idx 0
      + gather_S13776x3_S4x131072x1_S4x131072x3_2_0_n_n_0_2_13.batchCoord (ix3 b s c) 0
      + gather_S13776x3_S4x131072x1_S4x131072x3_2_0_n_n_0_2_13.offCoord (ix3 b s c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S13776x3_S4x131072x1_S4x131072x3_2_0_n_n_0_2_13.startIndexMap from List.mem_singleton.mpr rfl)]
    have hsi : gather_S13776x3_S4x131072x1_S4x131072x3_2_0_n_n_0_2_13.siIdx (ix3 b s c)
        ⟨List.idxOf (0 : Fin 2) gather_S13776x3_S4x131072x1_S4x131072x3_2_0_n_n_0_2_13.startIndexMap,
          List.idxOf_lt_length_iff.2 (List.mem_singleton.mpr rfl)⟩ = ix3 b s (0 : Fin 1) := by
      funext e; refine Fin.ext ?_
      match e with
      | ⟨0, _⟩ => rfl
      | ⟨1, _⟩ => rfl
      | ⟨2, _⟩ => rfl
    rw [hsi]
    rfl
  | ⟨1, _⟩ =>
    show gather_S13776x3_S4x131072x1_S4x131072x3_2_0_n_n_0_2_13.start (ix3 b s c) idx 1
      + gather_S13776x3_S4x131072x1_S4x131072x3_2_0_n_n_0_2_13.batchCoord (ix3 b s c) 1
      + gather_S13776x3_S4x131072x1_S4x131072x3_2_0_n_n_0_2_13.offCoord (ix3 b s c) 1 = _
    rw [GatherDims.batchCoord_eq_zero _ _ _ List.not_mem_nil]
    unfold GatherDims.start
    rw [dif_neg (show ¬ (1 : Fin 2) ∈ gather_S13776x3_S4x131072x1_S4x131072x3_2_0_n_n_0_2_13.startIndexMap from by decide)]
    simp only [Nat.add_zero, Nat.zero_add]
    rfl

/-- The vertex-tables gather. The table axis is collapsed and named by the start index, whose one component sits at (b, 0); the
    row axis and the channel axis are offset axes taken whole. Result index (b, v, d) reads the table that word names, clamped,
    at row v and channel d. -/
private theorem opIdx19 (idx : IVec S4x1 32) (b : Fin 4) (v : Fin 6890) (d : Fin 64) :
    gather_S256x6890x64_S4x1_S4x6890x64_12_0_n_n_0_1_1689064.operandIdx (ix3 b v d) idx
      = ix3 (rowOf 256 (by decide) (idx (ix2 b (0 : Fin 1)))) v d := by
  funext a
  refine Fin.ext ?_
  match a with
  | ⟨0, _⟩ =>
    show gather_S256x6890x64_S4x1_S4x6890x64_12_0_n_n_0_1_1689064.start (ix3 b v d) idx 0
      + gather_S256x6890x64_S4x1_S4x6890x64_12_0_n_n_0_1_1689064.batchCoord (ix3 b v d) 0
      + gather_S256x6890x64_S4x1_S4x6890x64_12_0_n_n_0_1_1689064.offCoord (ix3 b v d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S256x6890x64_S4x1_S4x6890x64_12_0_n_n_0_1_1689064.startIndexMap from List.mem_singleton.mpr rfl)]
    have hsi : gather_S256x6890x64_S4x1_S4x6890x64_12_0_n_n_0_1_1689064.siIdx (ix3 b v d)
        ⟨List.idxOf (0 : Fin 3) gather_S256x6890x64_S4x1_S4x6890x64_12_0_n_n_0_1_1689064.startIndexMap,
          List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    show gather_S256x6890x64_S4x1_S4x6890x64_12_0_n_n_0_1_1689064.start (ix3 b v d) idx 1
      + gather_S256x6890x64_S4x1_S4x6890x64_12_0_n_n_0_1_1689064.batchCoord (ix3 b v d) 1
      + gather_S256x6890x64_S4x1_S4x6890x64_12_0_n_n_0_1_1689064.offCoord (ix3 b v d) 1 = _
    rw [GatherDims.batchCoord_eq_zero _ _ _ List.not_mem_nil]
    unfold GatherDims.start
    rw [dif_neg (show ¬ (1 : Fin 3) ∈ gather_S256x6890x64_S4x1_S4x6890x64_12_0_n_n_0_1_1689064.startIndexMap from by decide)]
    simp only [Nat.add_zero, Nat.zero_add]
    rfl
  | ⟨2, _⟩ =>
    show gather_S256x6890x64_S4x1_S4x6890x64_12_0_n_n_0_1_1689064.start (ix3 b v d) idx 2
      + gather_S256x6890x64_S4x1_S4x6890x64_12_0_n_n_0_1_1689064.batchCoord (ix3 b v d) 2
      + gather_S256x6890x64_S4x1_S4x6890x64_12_0_n_n_0_1_1689064.offCoord (ix3 b v d) 2 = _
    rw [GatherDims.batchCoord_eq_zero _ _ _ List.not_mem_nil]
    unfold GatherDims.start
    rw [dif_neg (show ¬ (2 : Fin 3) ∈ gather_S256x6890x64_S4x1_S4x6890x64_12_0_n_n_0_1_1689064.startIndexMap from by decide)]
    simp only [Nat.add_zero, Nat.zero_add]
    rfl

/-- The gather at two components. The operand's batch axis and row axis are both collapsed, and named by components 0 and 1 of
    the start index at (b, s, c); the channel axis is the offset axis. Result index (b, s, c, d) reads the batch row and the
    table row those two words name, each clamped, at channel d. -/
private theorem opIdx36 (idx : IVec S4x131072x3x2 32) (b : Fin 4) (s : Fin 131072) (c : Fin 3) (d : Fin 64) :
    gather_S4x6890x64_S4x131072x3x2_S4x131072x3x64_3_01_n_n_01_3_1164.operandIdx (ix4 b s c d) idx
      = ix3 (rowOf 4 (by decide) (idx (ix4 b s c (0 : Fin 2)))) (rowOf 6890 (by decide) (idx (ix4 b s c (1 : Fin 2)))) d := by
  funext a
  refine Fin.ext ?_
  match a with
  | ⟨0, _⟩ =>
    show gather_S4x6890x64_S4x131072x3x2_S4x131072x3x64_3_01_n_n_01_3_1164.start (ix4 b s c d) idx 0
      + gather_S4x6890x64_S4x131072x3x2_S4x131072x3x64_3_01_n_n_01_3_1164.batchCoord (ix4 b s c d) 0
      + gather_S4x6890x64_S4x131072x3x2_S4x131072x3x64_3_01_n_n_01_3_1164.offCoord (ix4 b s c d) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (0 : Fin 3) ∈ gather_S4x6890x64_S4x131072x3x2_S4x131072x3x64_3_01_n_n_01_3_1164.startIndexMap := by decide
    rw [dif_pos hm]
    have hsi : gather_S4x6890x64_S4x131072x3x2_S4x131072x3x64_3_01_n_n_01_3_1164.siIdx (ix4 b s c d)
        ⟨List.idxOf (0 : Fin 3) gather_S4x6890x64_S4x131072x3x2_S4x131072x3x64_3_01_n_n_01_3_1164.startIndexMap,
          List.idxOf_lt_length_iff.2 hm⟩ = ix4 b s c (0 : Fin 2) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show gather_S4x6890x64_S4x131072x3x2_S4x131072x3x64_3_01_n_n_01_3_1164.start (ix4 b s c d) idx 1
      + gather_S4x6890x64_S4x131072x3x2_S4x131072x3x64_3_01_n_n_01_3_1164.batchCoord (ix4 b s c d) 1
      + gather_S4x6890x64_S4x131072x3x2_S4x131072x3x64_3_01_n_n_01_3_1164.offCoord (ix4 b s c d) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (1 : Fin 3) ∈ gather_S4x6890x64_S4x131072x3x2_S4x131072x3x64_3_01_n_n_01_3_1164.startIndexMap := by decide
    rw [dif_pos hm]
    have hsi : gather_S4x6890x64_S4x131072x3x2_S4x131072x3x64_3_01_n_n_01_3_1164.siIdx (ix4 b s c d)
        ⟨List.idxOf (1 : Fin 3) gather_S4x6890x64_S4x131072x3x2_S4x131072x3x64_3_01_n_n_01_3_1164.startIndexMap,
          List.idxOf_lt_length_iff.2 hm⟩ = ix4 b s c (1 : Fin 2) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    show gather_S4x6890x64_S4x131072x3x2_S4x131072x3x64_3_01_n_n_01_3_1164.start (ix4 b s c d) idx 2
      + gather_S4x6890x64_S4x131072x3x2_S4x131072x3x64_3_01_n_n_01_3_1164.batchCoord (ix4 b s c d) 2
      + gather_S4x6890x64_S4x131072x3x2_S4x131072x3x64_3_01_n_n_01_3_1164.offCoord (ix4 b s c d) 2 = _
    rw [GatherDims.batchCoord_eq_zero _ _ _ List.not_mem_nil]
    unfold GatherDims.start
    rw [dif_neg (show ¬ (2 : Fin 3) ∈ gather_S4x6890x64_S4x131072x3x2_S4x131072x3x64_3_01_n_n_01_3_1164.startIndexMap from by decide)]
    simp only [Nat.add_zero, Nat.zero_add]
    rfl

/-! ## The stages between the arguments and the product, each read at explicit coordinates -/

/-- The face id after the negative-word step is the face id, for a word in range of the face table. -/
private theorem v10_at (x3 : (⟨S4x131072, .i32⟩ : BufTy).Contents (Elt Ideal)) (i : S4x131072.Idx) (h : (x3 i).toNat < 13776) :
    Read.val_main_v10 (F := Ideal) x3 i = x3 i := by
  rw [Read.val_main_v10_apply, Read.val_main_v7_apply, Read.val_main_v6_apply, Read.val_main_c_apply,
    slt_zero _ (by omega), select_zero]

/-- The gathered face row at (b, s, c): the face table at the row fid[b, s] names, corner c. -/
private theorem v12_at (x2 : (⟨S13776x3, .i32⟩ : BufTy).Contents (Elt Ideal)) (x3 : (⟨S4x131072, .i32⟩ : BufTy).Contents (Elt Ideal))
    (h3 : ∀ i, (x3 i).toNat < 13776) (b : Fin 4) (s : Fin 131072) (c : Fin 3) :
    Read.val_main_v12 (F := Ideal) x2 x3 (ix3 b s c) = x2 (ix2 (rowOf 13776 (by decide) (x3 (ix2 b s))) c) := by
  have hi : Read.idx_main_v11 (ix3 b s (0 : Fin 1)) = ix2 b s := by
    funext a; match a with | ⟨0, _⟩ => rfl | ⟨1, _⟩ => rfl
  unfold Read.val_main_v12
  rw [gather_eq, opIdx12, Read.val_main_v11_apply, hi, v10_at x3 _ (h3 _)]

/-- The subject word after the negative-word step is the subject word, for a word in range of the tables. -/
private theorem v17_at (x1 : (⟨S4, .i32⟩ : BufTy).Contents (Elt Ideal)) (i : S4.Idx) (h : (x1 i).toNat < 256) :
    Read.val_main_v17 (F := Ideal) x1 i = x1 i := by
  rw [Read.val_main_v17_apply, Read.val_main_v14_apply, Read.val_main_v13_apply, Read.val_main_c_1_apply,
    slt_zero _ (by omega), select_zero]

/-- The gathered tables at (b, v, d): the table idx[b] names, at row v and channel d. -/
private theorem v19_at (x1 : (⟨S4, .i32⟩ : BufTy).Contents (Elt Ideal)) (x7 : (⟨S256x6890x64, .f32⟩ : BufTy).Contents (Elt Ideal))
    (h1 : ∀ i, (x1 i).toNat < 256) (b : Fin 4) (v : Fin 6890) (d : Fin 64) :
    Read.val_main_v19 (F := Ideal) x1 x7 (ix3 b v d) = x7 (ix3 (rowOf 256 (by decide) (x1 (ix1 b))) v d) := by
  have hi : Read.idx_main_v18 (ix2 b (0 : Fin 1)) = ix1 b := by
    funext a; match a with | ⟨0, _⟩ => rfl
  unfold Read.val_main_v19
  rw [gather_eq, opIdx19, Read.val_main_v18_apply, hi, v17_at x1 _ (h1 _)]

/-- The batch number as a word: the iota along the batch axis reads b, and b is below 4, so its negative-word step returns it. -/
private theorem v26_at (b : Fin 4) :
    Read.val_main_v26 (F := Ideal) (ix3 b (0 : Fin 1) (0 : Fin 1)) = BitVec.ofNat 32 b.val := by
  have hb : (BitVec.ofNat 32 b.val).toNat < 2 ^ 31 := by
    rw [BitVec.toNat_ofNat]; have := b.isLt; omega
  rw [Read.val_main_v26_apply, Read.val_main_v23_apply, Read.val_main_v22_apply, Read.val_main_c_3_apply,
    Read.val_main_v21_apply, Read.val_main_v20_apply]
  show Scalar.select (IntOp.cmpi .slt (BitVec.ofNat 32 b.val) 0#32) _ (BitVec.ofNat 32 b.val) = _
  rw [slt_zero _ hb, select_zero]

/-- A corner's vertex word after the negative-word step is the word, when it is below 2³¹. -/
private theorem v31_at (x2 : (⟨S13776x3, .i32⟩ : BufTy).Contents (Elt Ideal)) (x3 : (⟨S4x131072, .i32⟩ : BufTy).Contents (Elt Ideal))
    (i : S4x131072x3.Idx) (h : (Read.val_main_v12 (F := Ideal) x2 x3 i).toNat < 2 ^ 31) :
    Read.val_main_v31 (F := Ideal) x2 x3 i = Read.val_main_v12 (F := Ideal) x2 x3 i := by
  rw [Read.val_main_v31_apply, Read.val_main_v28_apply, Read.val_main_v27_apply, Read.val_main_c_5_apply,
    slt_zero _ h, select_zero]

/-- The joined start index, component 0 (it falls in the first piece of the join): the batch number's word. -/
private theorem v35_at0 (x2 : (⟨S13776x3, .i32⟩ : BufTy).Contents (Elt Ideal)) (x3 : (⟨S4x131072, .i32⟩ : BufTy).Contents (Elt Ideal))
    (b : Fin 4) (s : Fin 131072) (c : Fin 3) :
    Read.val_main_v35 (F := Ideal) x2 x3 (ix4 b s c (0 : Fin 2)) = BitVec.ofNat 32 b.val := by
  have hi : Read.idx_main_v32 (Read.idx_main_v33 (ix4 b s c (0 : Fin 1))) = ix3 b (0 : Fin 1) (0 : Fin 1) := by
    funext a; match a with | ⟨0, _⟩ => rfl | ⟨1, _⟩ => rfl | ⟨2, _⟩ => rfl
  unfold Read.val_main_v35
  rw [concatenate_pair_apply_left (s₁ := S4x131072x3x1) (s₂ := S4x131072x3x1) (3 : Fin 4) _ _ _ (ix4 b s c (0 : Fin 2)) rfl (ix4 b s c (0 : Fin 1))
    (fun e => match e with | ⟨0, _⟩ => rfl | ⟨1, _⟩ => rfl | ⟨2, _⟩ => rfl | ⟨3, _⟩ => rfl)]
  rw [Read.val_main_v33_apply, Read.val_main_v32_apply, hi, v26_at]

/-- The joined start index, component 1 (it falls in the second piece, at that piece's position 0): the corner's vertex word. -/
private theorem v35_at1 (x2 : (⟨S13776x3, .i32⟩ : BufTy).Contents (Elt Ideal)) (x3 : (⟨S4x131072, .i32⟩ : BufTy).Contents (Elt Ideal))
    (b : Fin 4) (s : Fin 131072) (c : Fin 3) :
    Read.val_main_v35 (F := Ideal) x2 x3 (ix4 b s c (1 : Fin 2)) = Read.val_main_v31 (F := Ideal) x2 x3 (ix3 b s c) := by
  have hi : Read.idx_main_v34 (ix4 b s c (0 : Fin 1)) = ix3 b s c := by
    funext a; match a with | ⟨0, _⟩ => rfl | ⟨1, _⟩ => rfl | ⟨2, _⟩ => rfl
  unfold Read.val_main_v35
  rw [concatenate_pair_apply_right (s₁ := S4x131072x3x1) (s₂ := S4x131072x3x1) (3 : Fin 4) _ _ _ (ix4 b s c (1 : Fin 2)) rfl rfl (ix4 b s c (0 : Fin 1))
    (fun e => match e with | ⟨0, _⟩ => fun _ => rfl | ⟨1, _⟩ => fun _ => rfl | ⟨2, _⟩ => fun _ => rfl | ⟨3, _⟩ => fun h => absurd rfl h)
    rfl]
  rw [Read.val_main_v34_apply, hi]
/-- The gather at two components, at (b, s, c, d): batch row b and the row the corner's vertex word names, of the gathered
    tables; that is the subject's table at the hit vertex of corner c, channel d. The vertex word is in range of the vertex
    axis because every face-table entry is. -/
private theorem v36_at (x1 : (⟨S4, .i32⟩ : BufTy).Contents (Elt Ideal)) (x2 : (⟨S13776x3, .i32⟩ : BufTy).Contents (Elt Ideal))
    (x3 : (⟨S4x131072, .i32⟩ : BufTy).Contents (Elt Ideal)) (x7 : (⟨S256x6890x64, .f32⟩ : BufTy).Contents (Elt Ideal))
    (h1 : ∀ i, (x1 i).toNat < 256) (h2 : ∀ i, (x2 i).toNat < 6890) (h3 : ∀ i, (x3 i).toNat < 13776)
    (b : Fin 4) (s : Fin 131072) (c : Fin 3) (d : Fin 64) :
    Read.val_main_v36 (F := Ideal) x1 x2 x3 x7 (ix4 b s c d)
      = x7 (ix3 (rowOf 256 (by decide) (x1 (ix1 b))) (hitVertex x2 x3 b s c) d) := by
  have h12 : (Read.val_main_v12 (F := Ideal) x2 x3 (ix3 b s c)).toNat < 2 ^ 31 := by
    rw [v12_at x2 x3 h3]; have := h2 (ix2 (rowOf 13776 (by decide) (x3 (ix2 b s))) c); omega
  unfold Read.val_main_v36
  rw [gather_eq, opIdx36, v35_at0, v35_at1, v31_at x2 x3 _ h12, v12_at x2 x3 h3, rowOf_ofNat, v19_at x1 x7 h1]
  rfl

/-! ## The sum over the corners -/

/-- THE REFERENCE'S VERTEX FEATURES ARE THE SPECIFICATION'S, for index words in range. -/
theorem ref_feat_eq (x1 : (⟨S4, .i32⟩ : BufTy).Contents (Elt Ideal)) (x2 : (⟨S13776x3, .i32⟩ : BufTy).Contents (Elt Ideal))
    (x3 : (⟨S4x131072, .i32⟩ : BufTy).Contents (Elt Ideal)) (x4 : (⟨S4x131072x3, .f32⟩ : BufTy).Contents (Elt Ideal))
    (x7 : (⟨S256x6890x64, .f32⟩ : BufTy).Contents (Elt Ideal))
    (h1 : ∀ i, (x1 i).toNat < 256) (h2 : ∀ i, (x2 i).toNat < 6890) (h3 : ∀ i, (x3 i).toNat < 13776) :
    Cert.ReferenceIdeal.Read.val_main_v40 (F := Ideal) x1 x2 x3 x4 x7 = Cert.FaceFeat.featG x7 x1 x2 x3 x4 := by
  funext i
  obtain ⟨b, s, d, rfl⟩ : ∃ b s d, i = ix3 b s d := ⟨i 0, i 1, i 2, eq_ix3 i⟩
  rw [Read.val_main_v40_apply, Read.val_main_cst_7_apply]
  show Ideal.ofBits .f32 0x00000000#32 + _ = _
  rw [Ideal.ofBits_zero_f32, zero_add]
  refine Finset.sum_congr rfl fun c _ => ?_
  have hj : Read.idx_main_v40 (ix3 b s d) c = ix4 b s c d := by
    funext a; match a with | ⟨0, _⟩ => rfl | ⟨1, _⟩ => rfl | ⟨2, _⟩ => rfl | ⟨3, _⟩ => rfl
  have hw : Read.idx_main_v37 (Read.idx_main_v38 (ix4 b s c d)) = ix3 b s c := by
    funext a; match a with | ⟨0, _⟩ => rfl | ⟨1, _⟩ => rfl | ⟨2, _⟩ => rfl
  rw [hj, Read.val_main_v39_apply, v36_at x1 x2 x3 x7 h1 h2 h3, Read.val_main_v38_apply, Read.val_main_v37_apply, hw]
  rfl

end Cert.FaceFeat.Ref

end
-- ==== Proof.RefSmall.lean ====
/-
  The reference's normal and coordinate features, read at an index, are the specification's.

  The normal: the reference subtracts the coordinates from the hit positions, squares, sums the three squares of a point onto
  a zero initial value, takes the square root, takes the larger of that and the floor constant, spreads it back over the three
  coordinates and divides. Read at (b, s, k) every stage but the sum reads one element of its operand, so the result is the
  offset's coordinate k over the larger of the offset's length and the constant; the zero initial value drops out of the sum.
  The coordinate features: columns 0 and 1 of the result come from the weights' columns 1 and 2 (the slice starts at column 1),
  column 2 from the signed distance.
-/
import proofs.«413851_j32942399160428_3_alg».proof.Proof.Gen.ReferenceIdeal.Read
import proofs.«413851_j32942399160428_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.FaceFeat.Ref

open Cert.ReferenceIdeal Idealize.ShloMosaic Idealize.ShloMosaic.ValueIdx

/-- The element of a point's three squares that the sum's k-th term reads is the point's coordinate k. -/
theorem sq_idx (i : S4x131072x3.Idx) (k : Fin 3) :
    Read.idx_main_call0_v1 (Read.idx_main_call0_v2 (Read.idx_main_v4 i)) k = ix3 (i 0) (i 1) k := by
  funext a
  match a with
  | ⟨0, _⟩ => rfl
  | ⟨1, _⟩ => rfl
  | ⟨2, _⟩ => rfl

/-- THE REFERENCE'S NORMAL IS THE SPECIFICATION'S. -/
theorem ref_normal_eq (x0 x6 : (⟨S4x131072x3, .f32⟩ : BufTy).Contents (Elt Ideal)) :
    Cert.ReferenceIdeal.Read.val_main_v5 (F := Ideal) x0 x6 = Cert.FaceFeat.normalG x0 x6 := by
  funext i
  rw [Read.val_main_v5_apply, Read.val_main_v4_apply, Read.val_main_v3_apply, Read.val_main_v1_apply, Read.val_main_call0_v2_apply,
    Read.val_main_call0_v1_apply, Read.val_main_v2_apply, Read.val_main_cst_apply, Read.val_main_call0_cst_apply, Read.val_main_v0_apply]
  simp only [Read.val_main_call0_v0_apply, Read.val_main_v0_apply, sq_idx, Ideal.hostDivf_def, Ideal.subf_def, Ideal.mulf_def,
    Ideal.maximumf_def, Ideal.hostUnary_sqrt_def, Ideal.ofBits_def, Ideal.ofBits_zero_f32, zero_add]
  rfl

/-- THE REFERENCE'S COORDINATE FEATURES ARE THE SPECIFICATION'S. -/
theorem ref_coordsFeat_eq (x4 : (⟨S4x131072x3, .f32⟩ : BufTy).Contents (Elt Ideal)) (x5 : (⟨S4x131072x1, .f32⟩ : BufTy).Contents (Elt Ideal)) :
    Cert.ReferenceIdeal.Read.val_main_v42 (F := Ideal) x4 x5 = Cert.FaceFeat.coordsFeatG x4 x5 := by
  funext i
  obtain ⟨b, s, k, rfl⟩ : ∃ (b : Fin 4) (s : Fin 131072) (k : Fin 3), i = ix3 b s k := ⟨i 0, i 1, i 2, eq_ix3 i⟩
  unfold Read.val_main_v42 Cert.FaceFeat.coordsFeatG
  by_cases hk : k.val < 2
  · rw [dif_pos (show ((ix3 b s k : S4x131072x3.Idx) 2).val < 2 from hk)]
    refine (concatenate_pair_apply_left (s₁ := S4x131072x2) (s₂ := S4x131072x1) (2 : Fin 3) _ _ _ (ix3 b s k) rfl
      (ix3 b s (⟨k.val, hk⟩ : Fin 2)) (fun a => ?_)).trans ?_
    · match a with
      | ⟨0, _⟩ => rfl
      | ⟨1, _⟩ => rfl
      | ⟨2, _⟩ => rfl
    · rw [Read.val_main_v41_apply]
      refine congrArg x4 (funext fun a => ?_)
      match a with
      | ⟨0, _⟩ => rfl
      | ⟨1, _⟩ => rfl
      | ⟨2, _⟩ => exact Fin.ext (Nat.add_comm 1 k.val)
  · rw [dif_neg (show ¬ ((ix3 b s k : S4x131072x3.Idx) 2).val < 2 from hk)]
    have hk2 : k.val = 2 := by have := k.isLt; omega
    refine concatenate_pair_apply_right (s₁ := S4x131072x2) (s₂ := S4x131072x1) (2 : Fin 3) _ _ _ (ix3 b s k) rfl rfl
      (ix3 b s (0 : Fin 1)) (fun a ha => ?_) ?_
    · match a with
      | ⟨0, _⟩ => rfl
      | ⟨1, _⟩ => rfl
      | ⟨2, _⟩ => exact absurd rfl ha
    · show 0 + 2 = k.val
      omega

end Cert.FaceFeat.Ref

end
-- ==== Proof.Bridge.lean ====
/-
  The two programs' results are the specification's three functions of the argument arrays.

  Kernel side: a grid point's three output blocks are the specification's functions read where the blocks lie (the point's
  body, read at an index, over input blocks that are the arrays read where those blocks lie; for the vertex features also the
  arrays the host operations before the kernel wrote: in the domain the hit faces are the face table's rows and the padded table
  is the subject's vertex table with zero rows behind it, and a corner's vertex is below 6890, so it picks a row of the table
  proper); the blocks cover the arrays, so the arrays after the run are the specification's functions.
  Reference side: its three results, read stage by stage, are the same functions.
  Both runs therefore end with equal results, and each leaves its arguments unchanged.
-/
import proofs.«413851_j32942399160428_3_alg».proof.Defs
import proofs.«413851_j32942399160428_3_alg».proof.Proof.Blocks
import proofs.«413851_j32942399160428_3_alg».proof.Proof.HostGlue
import proofs.«413851_j32942399160428_3_alg».proof.Proof.PointSmall
import proofs.«413851_j32942399160428_3_alg».proof.Proof.PointFeat
import proofs.«413851_j32942399160428_3_alg».proof.Proof.PreDecode
import proofs.«413851_j32942399160428_3_alg».proof.Proof.RefFeat
import proofs.«413851_j32942399160428_3_alg».proof.Proof.RefSmall
import proofs.«413851_j32942399160428_3_alg».proof.Proof.Args
import proofs.«413851_j32942399160428_3_alg».proof.Proof.Gen.Kernel.Frame
import proofs.«413851_j32942399160428_3_alg».proof.Proof.Gen.KernelIdeal.Value
import proofs.«413851_j32942399160428_3_alg».proof.Proof.Gen.ReferenceIdeal.Run
import proofs.«413851_j32942399160428_3_alg».proof.Proof.Gen.ReferenceIdeal.Read

set_option maxRecDepth 16384

noncomputable section

open scoped BigOperators

namespace Cert.FaceFeat.Bridge

open Cert.KernelIdeal Cert.KernelIdeal.Gen Idealize.ShloMosaic Idealize.ShloMosaic.TcCoe Idealize.SL.Sem Idealize.ShloMosaic.ValueIdx
open Cert.FaceFeat

variable (m : (ℓ : Loc nD τ sig) → Buf (Elt Ideal) ℓ)

/-! ## The arrays no host operation writes are the launch memory's -/

theorem coordsArr_eq (c : Dev nD) : Blocks.coordsArr m c = K.coordsA m c := V_main_arg0 m c
theorem hitptArr_eq (c : Dev nD) : Blocks.hitptArr m c = K.hitptA m c := V_main_arg6 m c
theorem wArr_eq (c : Dev nD) : Blocks.wArr m c = K.wA m c := V_main_arg4 m c
theorem sdfArr_eq (c : Dev nD) : Blocks.sdfArr m c = K.sdfA m c := V_main_arg5 m c

/-- Every index of a [1, n, k] block is (0, r, j). -/
theorem blk_idx {n k : Nat} (y : (⟨3, ![1, n, k]⟩ : Shape).Idx) : ∃ (r : Fin n) (j : Fin k), y = ix3 (0 : Fin 1) r j :=
  ⟨y 1, y 2, by
    rw [eq_ix3 y]
    congr 1
    exact Fin.ext (by have h := (y 0).isLt; change (y 0).val < 1 at h; show (y 0).val = 0; omega)⟩

/-! ## The normal and the coordinate features -/

/-- The normal's array after the kernel's run is the specification's. -/
theorem kernel_normal (c : Dev nD) : (dats m 0 c).arrAt 8 cfg0.N = normalG (K.coordsA m c) (K.hitptA m c) := by
  refine Blocks.normal_final m c _ (fun t r k => ?_)
  rw [Blocks.outsAt0_eq]
  dsimp only
  rw [Point.normal_point]
  simp only [Blocks.hitptBlk_apply, Blocks.coordsBlk_apply, hitptArr_eq, coordsArr_eq]
  rfl

/-- The coordinate features' array after the kernel's run is the specification's. -/
theorem kernel_coordsFeat (c : Dev nD) : (dats m 0 c).arrAt 7 cfg0.N = coordsFeatG (K.wA m c) (K.sdfA m c) := by
  refine Blocks.coordsFeat_final m c _ (fun t r k => ?_)
  rw [Blocks.outsAt0_eq]
  dsimp only
  rw [Point.coordsFeat_point]
  simp only [Blocks.wBlk_apply, Blocks.sdfBlk_apply, wArr_eq, sdfArr_eq]
  rfl

/-! ## The vertex features -/

/-- In the domain, a row of the padded table's block that is a vertex below 6890 is the subject's table row. -/
theorem table_row (c : Dev nD) (hd : K.Dom m c) (t : Fin cfg0.N) (n : ℕ) (hn : n < 6912) (v : Fin 6890) (hnv : n = v.val) (d : Fin 64) :
    Blocks.tableBlk m c t (ix3 (0 : Fin 1) (⟨n, hn⟩ : Fin 6912) d)
      = K.booksA m c (ix3 (rowOf 256 (by decide) (K.idxA m c (ix1 (Blocks.pb t)))) v d) := by
  subst hnv
  rw [Blocks.tableBlk_apply]
  show (V m c main_v3 : Vec Ideal S4x6912x64 .bf16) (ix3 (Blocks.pb t) (⟨v.val, hn⟩ : Fin 6912) d) = _
  rw [HostGlue.tableArr_apply m c hd, dif_pos (show (⟨v.val, hn⟩ : Fin 6912).val < 6890 from v.isLt)]

/-- In the domain, a corner's entry of the hit faces' block is the specification's vertex for that corner. -/
theorem face_corner (c : Dev nD) (hd : K.Dom m c) (t : Fin cfg0.N) (r : Fin 1024) (k : Fin 3) :
    (Blocks.faceBlk m c t (ix3 (0 : Fin 1) r k)).toNat = (hitVertex (K.facesA m c) (K.fidA m c) (Blocks.pb t) (Blocks.ps t r) k).val := by
  rw [Blocks.faceBlk_apply]
  show ((V m c main_v0 : Vec Ideal S4x131072x3 .i32) (ix3 (Blocks.pb t) (Blocks.ps t r) k)).toNat = _
  rw [HostGlue.faceArr_apply m c hd]
  exact (rowOf_val_of_lt 6890 (by decide) (by decide) _ (hd.faces_lt _)).symm

/-- The vertex features' array after the kernel's run is the specification's, in the domain. -/
theorem kernel_feat (c : Dev nD) (hd : K.Dom m c) :
    (dats m 0 c).arrAt 6 cfg0.N = featG (K.booksA m c) (K.idxA m c) (K.facesA m c) (K.fidA m c) (K.wA m c) := by
  refine Blocks.feat_final m c _ (fun t r d => ?_)
  rw [Blocks.outsAt0_eq]
  dsimp only
  have hx2 : ∀ y, ∃ q : ℝ, Blocks.wBlk m c t y = (q : EReal) := fun y => by
    obtain ⟨r', j, rfl⟩ := blk_idx y
    rw [Blocks.wBlk_apply, wArr_eq]
    exact hd.w_real _
  have hx4 : ∀ y, (Blocks.faceBlk m c t y).toNat < 6912 := fun y => by
    obtain ⟨r', j, rfl⟩ := blk_idx y
    rw [face_corner m c hd]
    exact Nat.lt_trans (Fin.isLt _) (by decide)
  have hx5 : ∀ y, ∃ q : ℝ, Blocks.tableBlk m c t y = (q : EReal) := fun y => by
    obtain ⟨u, j, rfl⟩ := blk_idx y
    rw [Blocks.tableBlk_apply]
    show ∃ q : ℝ, (V m c main_v3 : Vec Ideal S4x6912x64 .bf16) (ix3 (Blocks.pb t) u j) = (q : EReal)
    rw [HostGlue.tableArr_apply m c hd]
    by_cases hu : u.val < 6890
    · rw [dif_pos hu]; exact hd.books_real _
    · rw [dif_neg hu]; exact ⟨0, EReal.coe_zero.symm⟩
  rw [Point.feat_point c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t)
    (Blocks.coordsBlk m c t) (Blocks.hitptBlk m c t) (Blocks.wBlk m c t) (Blocks.sdfBlk m c t) (Blocks.faceBlk m c t) (Blocks.tableBlk m c t)
    hx2 hx5 hx4 r d]
  unfold featG
  refine Finset.sum_congr rfl fun k _ => ?_
  have hcorner : (Blocks.faceBlk m c t (ix3 (0 : Fin 1) r k)).toNat
      = (hitVertex (K.facesA m c) (K.fidA m c) (Blocks.pb t) (Blocks.ps t r) k).val := face_corner m c hd t r k
  have hrow := table_row m c hd t (Blocks.faceBlk m c t (ix3 (0 : Fin 1) r k)).toNat (hx4 (ix3 (0 : Fin 1) r k))
    (hitVertex (K.facesA m c) (K.fidA m c) (Blocks.pb t) (Blocks.ps t r) k) hcorner d
  rw [hrow, Blocks.wBlk_apply, wArr_eq]

/-! ## The precondition puts the launch memory in the domain -/

theorem dom_of_pre [Cert.Pre_finite_inputs.Facts] (h : Cert.Pre_KernelIdeal m) (c : Dev nD) : K.Dom m c :=
  Pre.inDomain_of_pre _ _ _ _ _ _ _ _ (h c)

end Cert.FaceFeat.Bridge

end
-- ==== Proof.lean ====
/-
  For each of 4 × 131072 points the kernel and its reference compute three arrays: the point's vertex features (the
  barycentric-weighted sum, over the three corners of the face the point hits, of rows of its subject's vertex table), its
  coordinate features (two of the weights and the signed distance), and its normal (the offset from the point to its hit position
  over the larger of the offset's length and a floor constant).

  The reference gathers the three table rows and sums them. The kernel spreads the point's three weights over the vertex axis as
  a row holding, at each vertex, the weights of the corners at that vertex, and multiplies that row into the table, stretch by
  stretch of 2304 vertices, adding the products up; the table is padded from 6890 to 6912 rows with zeros. Over the reals the
  product distributes over the corners and each corner's indicator picks one row, so the two are the same sum; the law fails at
  infinities, which is where the finiteness of the weights and of the tables is used. The two programs also treat an index out
  of range differently (the kernel's gathers mask and fill, the reference's clamp; a vertex id in the padding reads a zero row),
  so the precondition also keeps every index in range of its axis; there the gathers read the same rows.
  The other two arrays are the same operations on both sides, element by element, up to a zero initial value of a sum.

  The five conjuncts: the kernel's two frames are the generated ones; the reference's is its generated run with the results
  dropped; the idealization rewrote nothing; and the two idealized programs end with the specification's three functions of
  the argument arrays (Proof/Bridge.lean for the kernel's arrays, Proof/RefFeat.lean and Proof/RefSmall.lean for the
  reference's), run from memories that agree on the arguments.
-/
import proofs.«413851_j32942399160428_3_alg».proof.Defs
import proofs.«413851_j32942399160428_3_alg».proof.Proof.Gen.Kernel
import proofs.«413851_j32942399160428_3_alg».proof.Proof.Gen.Kernel.Frame
import proofs.«413851_j32942399160428_3_alg».proof.Proof.Gen.KernelIdeal
import proofs.«413851_j32942399160428_3_alg».proof.Proof.Gen.KernelIdeal.Frame
import proofs.«413851_j32942399160428_3_alg».proof.Proof.Gen.KernelIdeal.Value
import proofs.«413851_j32942399160428_3_alg».proof.Proof.Gen.ReferenceIdeal
import proofs.«413851_j32942399160428_3_alg».proof.Proof.Gen.ReferenceIdeal.Run
import proofs.«413851_j32942399160428_3_alg».proof.Proof.Gen.ReferenceIdeal.Read
import proofs.«413851_j32942399160428_3_alg».proof.Proof.Gen.Pre_finite_inputs
import proofs.«413851_j32942399160428_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.FaceFeat

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped: it terminates and keeps its arguments. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both idealized programs end with the specification's three functions of the (agreeing) argument arrays. -/
theorem algebraic : Cert.algebraic_KernelIdeal_ReferenceIdeal := by
  intro m ρ m' ρ' hpre hagree
  refine ⟨fun c => featG (K.booksA m c) (K.idxA m c) (K.facesA m c) (K.fidA m c) (K.wA m c),
    fun c => coordsFeatG (K.wA m c) (K.sdfA m c), fun c => normalG (K.coordsA m c) (K.hitptA m c), ?_, ?_⟩
  · refine (θ_run Cert.KernelIdeal.defs _ _).mono (fun r h c => ?_) (Cert.KernelIdeal.Value.run_blocks (F := Ideal) m ρ)
    obtain ⟨h6, h7, h8, rest⟩ := h c
    exact ⟨h6.trans (Bridge.kernel_feat m c (Bridge.dom_of_pre m hpre c)), h7.trans (Bridge.kernel_coordsFeat m c),
      h8.trans (Bridge.kernel_normal m c), rest⟩
  · refine (θ_run Cert.ReferenceIdeal.defs _ _).mono (fun r h c => ?_) (Cert.ReferenceIdeal.Value.run (F := Ideal) m' ρ')
    obtain ⟨h40, h42, h5, rest⟩ := h c
    obtain ⟨e0, e1, e2, e3, e4, e5, e6, e7⟩ := hagree c
    have hd := Bridge.dom_of_pre m hpre c
    refine ⟨h40.trans ?_, h42.trans ?_, h5.trans ?_, rest⟩
    · rw [Cert.ReferenceIdeal.Read.val_main_v40_eq, e1, e2, e3, e4, e7]
      exact Ref.ref_feat_eq _ _ _ _ _ hd.idx_lt hd.faces_lt hd.fid_lt
    · rw [Cert.ReferenceIdeal.Read.val_main_v42_eq, e4, e5]
      exact Ref.ref_coordsFeat_eq _ _
    · rw [Cert.ReferenceIdeal.Read.val_main_v5_eq, e0, e6]
      exact Ref.ref_normal_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
